-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v37)) (v2 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_v40) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S2x2097152 : Shape := ⟨2, ![2, 2097152]⟩
abbrev S65536 : Shape := ⟨1, ![65536]⟩
abbrev S128x64 : Shape := ⟨2, ![128, 64]⟩
abbrev S64 : Shape := ⟨1, ![64]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S65536x128 .f32) (main_arg1 : IVec S2x2097152 32) (main_arg2 : IVec S65536 32) (main_arg3 : FVec F S128x64 .f32) (main_arg4 : FVec F S128x64 .f32) (main_arg5 : FVec F S64 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S65536x128 : Shape := ⟨2, ![65536, 128]⟩
abbrev S2x2097152 : Shape := ⟨2, ![2, 2097152]⟩
abbrev S65536 : Shape := ⟨1, ![65536]⟩
abbrev S128x64 : Shape := ⟨2, ![128, 64]⟩
abbrev S64 : Shape := ⟨1, ![64]⟩
abbrev S65536x64 : Shape := ⟨2, ![65536, 64]⟩
abbrev S8192x128 : Shape := ⟨2, ![8192, 128]⟩
abbrev S8192x64 : Shape := ⟨2, ![8192, 64]⟩
abbrev S1x2097152 : Shape := ⟨2, ![1, 2097152]⟩
abbrev S2097152 : Shape := ⟨1, ![2097152]⟩
abbrev S_ : Shape := ⟨0, ![]⟩
abbrev S2097152x1 : Shape := ⟨2, ![2097152, 1]⟩
abbrev S2097152x64 : Shape := ⟨2, ![2097152, 64]⟩
abbrev S64x1024x64 : Shape := ⟨3, ![64, 1024, 64]⟩
abbrev S64x1024x128 : Shape := ⟨3, ![64, 1024, 128]⟩
abbrev S1x1x64 : Shape := ⟨3, ![1, 1, 64]⟩
abbrev S64x64x128 : Shape := ⟨3, ![64, 64, 128]⟩
abbrev S4x1024x64 : Shape := ⟨3, ![4, 1024, 64]⟩
abbrev S4x1024x128 : Shape := ⟨3, ![4, 1024, 128]⟩
abbrev S4x64x128 : Shape := ⟨3, ![4, 64, 128]⟩
abbrev S4096x128 : Shape := ⟨2, ![4096, 128]⟩
abbrev S4096x64 : Shape := ⟨2, ![4096, 64]⟩
abbrev S4x1024 : Shape := ⟨2, ![4, 1024]⟩
abbrev S4x1024x1 : Shape := ⟨3, ![4, 1024, 1]⟩
abbrev S64x64 : Shape := ⟨2, ![64, 64]⟩
abbrev S1x64x64 : Shape := ⟨3, ![1, 64, 64]⟩
abbrev S2x64x64 : Shape := ⟨3, ![2, 64, 64]⟩
abbrev S2x4096 : Shape := ⟨2, ![2, 4096]⟩
abbrev S1x64x1 : Shape := ⟨3, ![1, 64, 1]⟩
abbrev S2x1x4096 : Shape := ⟨3, ![2, 1, 4096]⟩
abbrev S2x64x4096 : Shape := ⟨3, ![2, 64, 4096]⟩
abbrev S2x262144 : Shape := ⟨2, ![2, 262144]⟩
abbrev S4096 : Shape := ⟨1, ![4096]⟩

abbrev nBuf : Space → Nat
  | .hbm => 51
  | .vmem => 13
  | .smem => 0
  | _ => 0

abbrev bufTy : (tb : Table) → Fin (tcTables nBuf tb) → BufTy
  | .hbm, ⟨0, _⟩ => ⟨S65536x128, .f32⟩
  | .hbm, ⟨1, _⟩ => ⟨S2x2097152, .i32⟩
  | .hbm, ⟨2, _⟩ => ⟨S65536, .i32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S65536x64, .bf16⟩
  | .hbm, ⟨7, _⟩ => ⟨S1x2097152, .i32⟩
  | .hbm, ⟨8, _⟩ => ⟨S2097152, .i32⟩
  | .hbm, ⟨9, _⟩ => ⟨S1x2097152, .i32⟩
  | .hbm, ⟨10, _⟩ => ⟨S2097152, .i32⟩
  | .hbm, ⟨11, _⟩ => ⟨S_, .i32⟩
  | .hbm, ⟨12, _⟩ => ⟨S2097152, .i32⟩
  | .hbm, ⟨13, _⟩ => ⟨S2097152, .i1⟩
  | .hbm, ⟨14, _⟩ => ⟨S_, .i32⟩
  | .hbm, ⟨15, _⟩ => ⟨S2097152, .i32⟩
  | .hbm, ⟨16, _⟩ => ⟨S2097152, .i32⟩
  | .hbm, ⟨17, _⟩ => ⟨S2097152, .i32⟩
  | .hbm, ⟨18, _⟩ => ⟨S2097152x1, .i32⟩
  | .hbm, ⟨19, _⟩ => ⟨S2097152x64, .bf16⟩
  | .hbm, ⟨20, _⟩ => ⟨S2097152x64, .f32⟩
  | .hbm, ⟨21, _⟩ => ⟨S_, .f32⟩
  | .hbm, ⟨22, _⟩ => ⟨S65536x64, .f32⟩
  | .hbm, ⟨23, _⟩ => ⟨S2097152x1, .i32⟩
  | .hbm, ⟨24, _⟩ => ⟨S65536x64, .f32⟩
  | .hbm, ⟨25, _⟩ => ⟨S64x1024x64, .f32⟩
  | .hbm, ⟨26, _⟩ => ⟨S64x1024x128, .f32⟩
  | .hbm, ⟨27, _⟩ => ⟨S1x1x64, .f32⟩
  | .hbm, ⟨28, _⟩ => ⟨S64x64x128, .f32⟩
  | .hbm, ⟨29, _⟩ => ⟨S4096x128, .f32⟩
  | .hbm, ⟨30, _⟩ => ⟨S64, .i32⟩
  | .hbm, ⟨31, _⟩ => ⟨S64, .i32⟩
  | .hbm, ⟨32, _⟩ => ⟨S64x64, .i32⟩
  | .hbm, ⟨33, _⟩ => ⟨S64x64, .i32⟩
  | .hbm, ⟨34, _⟩ => ⟨S1x64x64, .i32⟩
  | .hbm, ⟨35, _⟩ => ⟨S1x64x64, .i32⟩
  | .hbm, ⟨36, _⟩ => ⟨S2x64x64, .i32⟩
  | .hbm, ⟨37, _⟩ => ⟨S2x4096, .i32⟩
  | .hbm, ⟨38, _⟩ => ⟨S64, .i32⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S1x64x1, .i32⟩
  | .hbm, ⟨43, _⟩ => ⟨S2x1x4096, .i32⟩
  | .hbm, ⟨44, _⟩ => ⟨S2x64x4096, .i32⟩
  | .hbm, ⟨45, _⟩ => ⟨S2x64x4096, .i32⟩
  | .hbm, ⟨46, _⟩ => ⟨S2x64x4096, .i32⟩
  | .hbm, ⟨47, _⟩ => ⟨S2x262144, .i32⟩
  | .hbm, ⟨48, _⟩ => ⟨S64, .i32⟩
  | .hbm, ⟨49, _⟩ => ⟨S64x64, .i32⟩
  | .hbm, ⟨50, _⟩ => ⟨S4096, .i32⟩
  | .local _ .vmem, ⟨0, _⟩ => ⟨S8192x128, .f32⟩
  | .local _ .vmem, ⟨1, _⟩ => ⟨S8192x128, .f32⟩
  | .local _ .vmem, ⟨2, _⟩ => ⟨S128x64, .f32⟩
  | .local _ .vmem, ⟨3, _⟩ => ⟨S8192x64, .bf16⟩
  | .local _ .vmem, ⟨4, _⟩ => ⟨S8192x64, .bf16⟩
  | .local _ .vmem, ⟨5, _⟩ => ⟨S4x1024x64, .f32⟩
  | .local _ .vmem, ⟨6, _⟩ => ⟨S4x1024x64, .f32⟩
  | .local _ .vmem, ⟨7, _⟩ => ⟨S4x1024x128, .f32⟩
  | .local _ .vmem, ⟨8, _⟩ => ⟨S4x1024x128, .f32⟩
  | .local _ .vmem, ⟨9, _⟩ => ⟨S128x64, .f32⟩
  | .local _ .vmem, ⟨10, _⟩ => ⟨S1x1x64, .f32⟩
  | .local _ .vmem, ⟨11, _⟩ => ⟨S4x64x128, .f32⟩
  | .local _ .vmem, ⟨12, _⟩ => ⟨S4x64x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4x64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S8192x64_S8192x64_0_0 : ∀ a, (![0, 0] : Fin 2 → Nat) a + S8192x64.size a ≤ S8192x64.size a
  h_S8192x64 : 0 < S8192x64.numel
  packedbf16_S8192x64_S8192x64_0_0 : (Rect.unit (s := S8192x64) ![0, 0] S8192x64.size inb_S8192x64_S8192x64_0_0).PackedRows (EltTy.packing .bf16)
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S65536x64 : S_.BroadcastsInDim S65536x64 (![] : Fin 0 → Fin S65536x64.rank)
  shapeCasts_S65536x64_S64x1024x64 : S65536x64.ShapeCasts S64x1024x64
  shapeCasts_S65536x128_S64x1024x128 : S65536x128.ShapeCasts S64x1024x128
  shapeCasts_S64_S1x1x64 : S64.ShapeCasts S1x1x64
  inb_S4x1024x128_S4x1024x128_0_0_0 : ∀ a, (![0, 0, 0] : Fin 3 → Nat) a + S4x1024x128.size a ≤ S4x1024x128.size a
  h_S4x1024x128 : 0 < S4x1024x128.numel
  shapeCasts_S4x1024x128_S4x1024x128 : S4x1024x128.ShapeCasts S4x1024x128
  shapeCasts_S4x1024x128_S4096x128 : S4x1024x128.ShapeCasts S4096x128
  shapeCasts_S4096x64_S4x1024x64 : S4096x64.ShapeCasts S4x1024x64
  inb_S4x1024x64_S4x1024x64_0_0_0 : ∀ a, (![0, 0, 0] : Fin 3 → Nat) a + S4x1024x64.size a ≤ S4x1024x64.size a
  h_S4x1024x64 : 0 < S4x1024x64.numel
  shapeCasts_S4x1024x64_S4x1024x64 : S4x1024x64.ShapeCasts S4x1024x64
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  broadcasts_S1x1x64_S4x1024x64 : S1x1x64.Broadcasts S4x1024x64
  reduces_S4x1024x64_S4x1024 : S4x1024x64.Reduces [2] S4x1024
  shapeCasts_S4x1024_S4x1024x1 : S4x1024.ShapeCasts S4x1024x1
  broadcasts_S4x1024x1_S4x1024x64 : S4x1024x1.Broadcasts S4x1024x64
  inb_S4x64x128_S4x64x128_0_0_0 : ∀ a, (![0, 0, 0] : Fin 3 → Nat) a + S4x64x128.size a ≤ S4x64x128.size a
  h_S4x64x128 : 0 < S4x64x128.numel
  shapeCasts_S64x64x128_S4096x128 : S64x64x128.ShapeCasts S4096x128
  bcast_S64_S64x64_0 : S64.BroadcastsInDim S64x64 (![0] : Fin 1 → Fin S64x64.rank)
  bcast_S64_S64x64_1 : S64.BroadcastsInDim S64x64 (![1] : Fin 1 → Fin S64x64.rank)
  bcast_S64x64_S1x64x64_1_2 : S64x64.BroadcastsInDim S1x64x64 (![1, 2] : Fin 2 → Fin S1x64x64.rank)
  concatenates_S1x64x64_S1x64x64_S2x64x64_d0 : Shape.Concatenates [S1x64x64, S1x64x64] S2x64x64 0
  shapeCasts_S2x64x64_S2x4096 : S2x64x64.ShapeCasts S2x4096
  bcast_S_S64 : S_.BroadcastsInDim S64 (![] : Fin 0 → Fin S64.rank)
  bcast_S64_S1x64x1_1 : S64.BroadcastsInDim S1x64x1 (![1] : Fin 1 → Fin S1x64x1.rank)
  bcast_S2x4096_S2x1x4096_0_2 : S2x4096.BroadcastsInDim S2x1x4096 (![0, 2] : Fin 2 → Fin S2x1x4096.rank)
  bcast_S2x1x4096_S2x64x4096_0_1_2 : S2x1x4096.BroadcastsInDim S2x64x4096 (![0, 1, 2] : Fin 3 → Fin S2x64x4096.rank)
  bcast_S1x64x1_S2x64x4096_0_1_2 : S1x64x1.BroadcastsInDim S2x64x4096 (![0, 1, 2] : Fin 3 → Fin S2x64x4096.rank)
  shapeCasts_S2x64x4096_S2x262144 : S2x64x4096.ShapeCasts S2x262144
  shapeCasts_S64x64_S4096 : S64x64.ShapeCasts S4096
  dot_S8192x128_S128x64_S8192x64_1_0_0_1_n_n_wf : DotDims.WF S8192x128 S128x64 S8192x64 [1] [0] [0] [1] [] []
  gather_S65536x64_S2097152x1_S2097152x64_1_0_n_n_0_1_164_wf : GatherDims.WF S65536x64 S2097152x1 S2097152x64 [1] [0] [] [0] [] 1 ![1, 64]
  scatter_S65536x64_S2097152x1_S2097152x64_1_0_0_1_wf : ScatterDims.WF S65536x64 S2097152x1 S2097152x64 [1] [0] [0] 1
  dot_S4096x128_S128x64_S4096x64_1_0_0_1_n_n_wf : DotDims.WF S4096x128 S128x64 S4096x64 [1] [0] [0] [1] [] []
  dot_S4x1024x64_S4x1024x128_S4x64x128_1_1_2_2_0_0_wf : DotDims.WF S4x1024x64 S4x1024x128 S4x64x128 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S65536x64.size a
  hwx0_2 : ∀ i : grid0.Coords, EltTy.bits .bf16 = 32 ∨ (Rect.block (s := S65536x64) S8192x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x1024x64.size a ≤ S64x1024x64.size a
  hwx1_0 : ∀ i : grid1.Coords, EltTy.bits .f32 = 32 ∨ (Rect.block (s := S64x1024x64) S4x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x1024x128.size a ≤ S64x1024x128.size a
  hwx1_1 : ∀ i : grid1.Coords, EltTy.bits .f32 = 32 ∨ (Rect.block (s := S64x1024x128) S4x1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1x64.size a ≤ S1x1x64.size a
  hwx1_3 : ∀ i : grid1.Coords, EltTy.bits .f32 = 32 ∨ (Rect.block (s := S1x1x64) S1x1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x64x128.size a ≤ S64x64x128.size a
  hwx1_4 : ∀ i : grid1.Coords, EltTy.bits .f32 = 32 ∨ (Rect.block (s := S64x64x128) S4x64x128.size (cc1_transform_4 i) (hinb1_4 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S65536x64_S2097152x1_S2097152x64_1_0_n_n_0_1_164 : GatherDims S65536x64 S2097152x1 S2097152x64 where
  offsetDims := [1]
  collapsedSliceDims := [0]
  operandBatchingDims := []
  startIndicesBatchingDims := []
  startIndexMap := [0]
  indexVectorDim := 1
  sliceSizes := ![1, 64]
  wf := gather_S65536x64_S2097152x1_S2097152x64_1_0_n_n_0_1_164_wf
def scatter_S65536x64_S2097152x1_S2097152x64_1_0_0_1 : ScatterDims S65536x64 S2097152x1 S2097152x64 where
  updateWindowDims := [1]
  insertedWindowDims := [0]
  scatterDimsToOperandDims := [0]
  indexVectorDim := 1
  wf := scatter_S65536x64_S2097152x1_S2097152x64_1_0_0_1_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4x1024x64_S4x1024x128_S4x64x128_1_1_2_2_0_0 : DotDims S4x1024x64 S4x1024x128 S4x64x128 where
  lhsContracting := [1]
  rhsContracting := [1]
  lhsNonContracting := [2]
  rhsNonContracting := [2]
  lhsBatch := [0]
  rhsBatch := [0]
  wf := dot_S4x1024x64_S4x1024x128_S4x64x128_1_1_2_2_0_0_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S4x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S4x64x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S65536x128 : Shape := ⟨2, ![65536, 128]⟩
abbrev S2x2097152 : Shape := ⟨2, ![2, 2097152]⟩
abbrev S65536 : Shape := ⟨1, ![65536]⟩
abbrev S128x64 : Shape := ⟨2, ![128, 64]⟩
abbrev S64 : Shape := ⟨1, ![64]⟩
abbrev S1x2097152 : Shape := ⟨2, ![1, 2097152]⟩
abbrev S2097152 : Shape := ⟨1, ![2097152]⟩
abbrev S65536x64 : Shape := ⟨2, ![65536, 64]⟩
abbrev S_ : Shape := ⟨0, ![]⟩
abbrev S2097152x1 : Shape := ⟨2, ![2097152, 1]⟩
abbrev S2097152x64 : Shape := ⟨2, ![2097152, 64]⟩
abbrev S1x64 : Shape := ⟨2, ![1, 64]⟩
abbrev S64x1024x128 : Shape := ⟨3, ![64, 1024, 128]⟩
abbrev S64x1024x64 : Shape := ⟨3, ![64, 1024, 64]⟩
abbrev S64x1024x1024 : Shape := ⟨3, ![64, 1024, 1024]⟩
abbrev S2097152x3 : Shape := ⟨2, ![2097152, 3]⟩
abbrev S64x1024 : Shape := ⟨2, ![64, 1024]⟩
abbrev S64x1024x1 : Shape := ⟨3, ![64, 1024, 1]⟩
abbrev S64x64x128 : Shape := ⟨3, ![64, 64, 128]⟩
abbrev S64x64x1024 : Shape := ⟨3, ![64, 64, 1024]⟩
abbrev S64x64x64 : Shape := ⟨3, ![64, 64, 64]⟩
abbrev S4096x128 : Shape := ⟨2, ![4096, 128]⟩
abbrev S64x64 : Shape := ⟨2, ![64, 64]⟩
abbrev S1x64x64 : Shape := ⟨3, ![1, 64, 64]⟩
abbrev S2x64x64 : Shape := ⟨3, ![2, 64, 64]⟩
abbrev S2x4096 : Shape := ⟨2, ![2, 4096]⟩
abbrev S1x64x1 : Shape := ⟨3, ![1, 64, 1]⟩
abbrev S2x1x4096 : Shape := ⟨3, ![2, 1, 4096]⟩
abbrev S2x64x4096 : Shape := ⟨3, ![2, 64, 4096]⟩
abbrev S2x262144 : Shape := ⟨2, ![2, 262144]⟩
abbrev S4096 : Shape := ⟨1, ![4096]⟩

abbrev nBuf : Space → Nat
  | .hbm => 179
  | .vmem => 0
  | .smem => 0
  | _ => 0

abbrev hbmTy0_0 (i : Nat) : BufTy := match i % 128 with
  | 0 => ⟨S65536x128, .f32⟩
  | 1 => ⟨S2x2097152, .i32⟩
  | 2 => ⟨S65536, .i32⟩
  | 3 => ⟨S128x64, .f32⟩
  | 4 => ⟨S128x64, .f32⟩
  | 5 => ⟨S64, .f32⟩
  | 6 => ⟨S1x2097152, .i32⟩
  | 7 => ⟨S2097152, .i32⟩
  | 8 => ⟨S1x2097152, .i32⟩
  | 9 => ⟨S2097152, .i32⟩
  | 10 => ⟨S65536x64, .f32⟩
  | 11 => ⟨S_, .f32⟩
  | 12 => ⟨S65536x64, .f32⟩
  | 13 => ⟨S65536x64, .i1⟩
  | 14 => ⟨S_, .f32⟩
  | 15 => ⟨S65536x64, .f32⟩
  | 16 => ⟨S65536x64, .i1⟩
  | 17 => ⟨S_, .f32⟩
  | 18 => ⟨S_, .f32⟩
  | 19 => ⟨S65536x64, .f32⟩
  | 20 => ⟨S65536x64, .f32⟩
  | 21 => ⟨S65536x64, .f32⟩
  | 22 => ⟨S_, .f32⟩
  | 23 => ⟨S65536x64, .f32⟩
  | 24 => ⟨S65536x64, .f32⟩
  | 25 => ⟨S65536x64, .f32⟩
  | 26 => ⟨S_, .i32⟩
  | 27 => ⟨S2097152, .i32⟩
  | 28 => ⟨S2097152, .i1⟩
  | 29 => ⟨S_, .i32⟩
  | 30 => ⟨S2097152, .i32⟩
  | 31 => ⟨S2097152, .i32⟩
  | 32 => ⟨S2097152, .i32⟩
  | 33 => ⟨S2097152x1, .i32⟩
  | 34 => ⟨S2097152x64, .f32⟩
  | 35 => ⟨S_, .f32⟩
  | 36 => ⟨S65536x64, .f32⟩
  | 37 => ⟨S2097152x1, .i32⟩
  | 38 => ⟨S65536x64, .f32⟩
  | 39 => ⟨S65536x64, .f32⟩
  | 40 => ⟨S65536x64, .f32⟩
  | 41 => ⟨S1x64, .f32⟩
  | 42 => ⟨S65536x64, .f32⟩
  | 43 => ⟨S65536x64, .f32⟩
  | 44 => ⟨S65536x64, .f32⟩
  | 45 => ⟨S64x1024x128, .f32⟩
  | 46 => ⟨S64x1024x64, .f32⟩
  | 47 => ⟨S_, .i32⟩
  | 48 => ⟨S_, .i32⟩
  | 49 => ⟨S2097152, .i32⟩
  | 50 => ⟨S2097152, .i32⟩
  | 51 => ⟨S2097152, .i32⟩
  | 52 => ⟨S_, .i32⟩
  | 53 => ⟨S2097152, .i32⟩
  | 54 => ⟨S2097152, .i1⟩
  | 55 => ⟨S2097152, .i32⟩
  | 56 => ⟨S2097152, .i32⟩
  | 57 => ⟨S_, .i32⟩
  | 58 => ⟨S2097152, .i32⟩
  | 59 => ⟨S2097152, .i1⟩
  | 60 => ⟨S2097152, .i1⟩
  | 61 => ⟨S_, .i32⟩
  | 62 => ⟨S2097152, .i32⟩
  | 63 => ⟨S2097152, .i32⟩
  | 64 => ⟨S2097152, .i32⟩
  | 65 => ⟨S_, .f32⟩
  | 66 => ⟨S64x1024x1024, .f32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S2097152, .i32⟩
  | 74 => ⟨S2097152, .i32⟩
  | 75 => ⟨S_, .i32⟩
  | 76 => ⟨S2097152, .i32⟩
  | 77 => ⟨S2097152, .i1⟩
  | 78 => ⟨S_, .i32⟩
  | 79 => ⟨S2097152, .i32⟩
  | 80 => ⟨S2097152, .i1⟩
  | 81 => ⟨S_, .i32⟩
  | 82 => ⟨S_, .i1⟩
  | 83 => ⟨S2097152, .i1⟩
  | 84 => ⟨S2097152, .i1⟩
  | 85 => ⟨S2097152, .i1⟩
  | 86 => ⟨S2097152, .i32⟩
  | 87 => ⟨S2097152, .i32⟩
  | 88 => ⟨S2097152, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S2097152, .i32⟩
  | 96 => ⟨S2097152, .i32⟩
  | 97 => ⟨S_, .i32⟩
  | 98 => ⟨S2097152, .i32⟩
  | 99 => ⟨S2097152, .i1⟩
  | 100 => ⟨S_, .i32⟩
  | 101 => ⟨S2097152, .i32⟩
  | 102 => ⟨S2097152, .i1⟩
  | 103 => ⟨S_, .i32⟩
  | 104 => ⟨S_, .i1⟩
  | 105 => ⟨S2097152, .i1⟩
  | 106 => ⟨S2097152, .i1⟩
  | 107 => ⟨S2097152, .i1⟩
  | 108 => ⟨S2097152, .i32⟩
  | 109 => ⟨S2097152, .i32⟩
  | 110 => ⟨S2097152, .i32⟩
  | 111 => ⟨S_, .i32⟩
  | 112 => ⟨S2097152, .i32⟩
  | 113 => ⟨S2097152, .i1⟩
  | 114 => ⟨S_, .i32⟩
  | 115 => ⟨S2097152, .i32⟩
  | 116 => ⟨S2097152, .i32⟩
  | 117 => ⟨S2097152, .i32⟩
  | 118 => ⟨S_, .i32⟩
  | 119 => ⟨S2097152, .i32⟩
  | 120 => ⟨S2097152, .i1⟩
  | 121 => ⟨S_, .i32⟩
  | 122 => ⟨S2097152, .i32⟩
  | 123 => ⟨S2097152, .i32⟩
  | 124 => ⟨S2097152, .i32⟩
  | 125 => ⟨S_, .i32⟩
  | 126 => ⟨S2097152, .i32⟩
  | 127 => ⟨S2097152, .i1⟩
  | _ => ⟨S65536x128, .f32⟩

abbrev hbmTy0_1 (i : Nat) : BufTy := match i % 128 with
  | 0 => ⟨S_, .i32⟩
  | 1 => ⟨S2097152, .i32⟩
  | 2 => ⟨S2097152, .i32⟩
  | 3 => ⟨S2097152, .i32⟩
  | 4 => ⟨S2097152x1, .i32⟩
  | 5 => ⟨S2097152x1, .i32⟩
  | 6 => ⟨S2097152x1, .i32⟩
  | 7 => ⟨S2097152x3, .i32⟩
  | 8 => ⟨S_, .f32⟩
  | 9 => ⟨S2097152, .f32⟩
  | 10 => ⟨S64x1024x1024, .f32⟩
  | 11 => ⟨S_, .f32⟩
  | 12 => ⟨S64x1024, .f32⟩
  | 13 => ⟨S_, .f32⟩
  | 14 => ⟨S64x1024, .f32⟩
  | 15 => ⟨S64x1024, .f32⟩
  | 16 => ⟨S64x1024x1, .f32⟩
  | 17 => ⟨S64x1024x64, .f32⟩
  | 18 => ⟨S64x1024x64, .f32⟩
  | 19 => ⟨S64x1024x64, .f32⟩
  | 20 => ⟨S_, .f32⟩
  | 21 => ⟨S64x1024, .f32⟩
  | 22 => ⟨S64x1024x1, .f32⟩
  | 23 => ⟨S64x1024x64, .f32⟩
  | 24 => ⟨S64x1024x64, .f32⟩
  | 25 => ⟨S64x64x128, .f32⟩
  | 26 => ⟨S64x64x1024, .f32⟩
  | 27 => ⟨S64x1024x64, .f32⟩
  | 28 => ⟨S64x64x64, .f32⟩
  | 29 => ⟨S4096x128, .f32⟩
  | 30 => ⟨S64, .i32⟩
  | 31 => ⟨S64, .i32⟩
  | 32 => ⟨S64x64, .i32⟩
  | 33 => ⟨S64x64, .i32⟩
  | 34 => ⟨S1x64x64, .i32⟩
  | 35 => ⟨S1x64x64, .i32⟩
  | 36 => ⟨S2x64x64, .i32⟩
  | 37 => ⟨S2x4096, .i32⟩
  | 38 => ⟨S64, .i32⟩
  | 39 => ⟨S_, .i32⟩
  | 40 => ⟨S64, .i32⟩
  | 41 => ⟨S64, .i32⟩
  | 42 => ⟨S1x64x1, .i32⟩
  | 43 => ⟨S2x1x4096, .i32⟩
  | 44 => ⟨S2x64x4096, .i32⟩
  | 45 => ⟨S2x64x4096, .i32⟩
  | 46 => ⟨S2x64x4096, .i32⟩
  | 47 => ⟨S2x262144, .i32⟩
  | 48 => ⟨S64, .i32⟩
  | 49 => ⟨S64x64, .i32⟩
  | 50 => ⟨S4096, .i32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_cst_1 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_v4 : Ref sig .tc := ⟨.hbm, 20, rfl⟩
abbrev main_call0_v5 : Ref sig .tc := ⟨.hbm, 21, rfl⟩
abbrev main_call0_cst_2 : Ref sig .tc := ⟨.hbm, 22, rfl⟩
abbrev main_call0_v6 : Ref sig .tc := ⟨.hbm, 23, rfl⟩
abbrev main_call0_v7 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_c_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_1 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_c : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_0 : Ref sig .tc := ⟨.hbm, 61, rfl⟩
abbrev main_call1_v12 : Ref sig .tc := ⟨.hbm, 62, rfl⟩
abbrev main_call1_v13 : Ref sig .tc := ⟨.hbm, 63, rfl⟩
abbrev main_v24 : Ref sig .tc := ⟨.hbm, 64, rfl⟩
abbrev main_cst_2 : Ref sig .tc := ⟨.hbm, 65, rfl⟩
abbrev main_v25 : Ref sig .tc := ⟨.hbm, 66, rfl⟩
abbrev main_c_3 : Ref sig .tc := ⟨.hbm, 67, rfl⟩
abbrev main_call2_v0 : Ref sig .tc := ⟨.hbm, 68, rfl⟩
abbrev main_call2_c : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_c_1 : Ref sig .tc := ⟨.hbm, 75, rfl⟩
abbrev main_call2_v5 : Ref sig .tc := ⟨.hbm, 76, rfl⟩
abbrev main_call2_v6 : Ref sig .tc := ⟨.hbm, 77, rfl⟩
abbrev main_call2_c_2 : Ref sig .tc := ⟨.hbm, 78, rfl⟩
abbrev main_call2_v7 : Ref sig .tc := ⟨.hbm, 79, rfl⟩
abbrev main_call2_v8 : Ref sig .tc := ⟨.hbm, 80, rfl⟩
abbrev main_call2_c_3 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_v26 : Ref sig .tc := ⟨.hbm, 88, rfl⟩
abbrev main_c_4 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_c_1 : Ref sig .tc := ⟨.hbm, 97, rfl⟩
abbrev main_call3_v5 : Ref sig .tc := ⟨.hbm, 98, rfl⟩
abbrev main_call3_v6 : Ref sig .tc := ⟨.hbm, 99, rfl⟩
abbrev main_call3_c_2 : Ref sig .tc := ⟨.hbm, 100, rfl⟩
abbrev main_call3_v7 : Ref sig .tc := ⟨.hbm, 101, rfl⟩
abbrev main_call3_v8 : Ref sig .tc := ⟨.hbm, 102, rfl⟩
abbrev main_call3_c_3 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_v27 : Ref sig .tc := ⟨.hbm, 110, rfl⟩
abbrev main_c_5 : Ref sig .tc := ⟨.hbm, 111, rfl⟩
abbrev main_v28 : Ref sig .tc := ⟨.hbm, 112, rfl⟩
abbrev main_v29 : Ref sig .tc := ⟨.hbm, 113, rfl⟩
abbrev main_c_6 : Ref sig .tc := ⟨.hbm, 114, rfl⟩
abbrev main_v30 : Ref sig .tc := ⟨.hbm, 115, rfl⟩
abbrev main_v31 : Ref sig .tc := ⟨.hbm, 116, rfl⟩
abbrev main_v32 : Ref sig .tc := ⟨.hbm, 117, rfl⟩
abbrev main_c_7 : Ref sig .tc := ⟨.hbm, 118, rfl⟩
abbrev main_v33 : Ref sig .tc := ⟨.hbm, 119, rfl⟩
abbrev main_v34 : Ref sig .tc := ⟨.hbm, 120, rfl⟩
abbrev main_c_8 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev main_c_9 : Ref sig .tc := ⟨.hbm, 125, rfl⟩
abbrev main_v38 : Ref sig .tc := ⟨.hbm, 126, rfl⟩
abbrev main_v39 : Ref sig .tc := ⟨.hbm, 127, rfl⟩
abbrev main_c_10 : Ref sig .tc := ⟨.hbm, 128, rfl⟩
abbrev main_v40 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_cst_11 : Ref sig .tc := ⟨.hbm, 136, rfl⟩
abbrev main_v47 : Ref sig .tc := ⟨.hbm, 137, rfl⟩
abbrev main_v48 : Ref sig .tc := ⟨.hbm, 138, rfl⟩
abbrev main_cst_12 : Ref sig .tc := ⟨.hbm, 139, rfl⟩
abbrev main_v49 : Ref sig .tc := ⟨.hbm, 140, rfl⟩
abbrev main_cst_13 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_cst_14 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_c_15 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩

abbrev nD : Nat := 1
abbrev τ : Topo := Topo.v7x

variable {F : FTy → Type} [FloatOps F]

class Facts₀ : Prop where
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  bcast_S_S65536x64 : S_.BroadcastsInDim S65536x64 (![] : Fin 0 → Fin S65536x64.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  shapeCasts_S65536x128_S64x1024x128 : S65536x128.ShapeCasts S64x1024x128
  shapeCasts_S65536x64_S64x1024x64 : S65536x64.ShapeCasts S64x1024x64
  bcast_S_S64x1024x1024 : S_.BroadcastsInDim S64x1024x1024 (![] : Fin 0 → Fin S64x1024x1024.rank)
  concatenates_S2097152x1_S2097152x1_S2097152x1_S2097152x3_d1 : Shape.Concatenates [S2097152x1, S2097152x1, S2097152x1] S2097152x3 1
  reducesTo_S64x1024x64_S64x1024_d2 : S64x1024x64.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x64_0_1_2 : S64x1024x1.BroadcastsInDim S64x1024x64 (![0, 1, 2] : Fin 3 → Fin S64x1024x64.rank)
  transposes_S64x1024x64_S64x64x1024_0_2_1 : S64x1024x64.Transposes [0, 2, 1] S64x64x1024
  shapeCasts_S64x64x128_S4096x128 : S64x64x128.ShapeCasts S4096x128
  bcast_S64_S64x64_0 : S64.BroadcastsInDim S64x64 (![0] : Fin 1 → Fin S64x64.rank)
  bcast_S64_S64x64_1 : S64.BroadcastsInDim S64x64 (![1] : Fin 1 → Fin S64x64.rank)
  bcast_S64x64_S1x64x64_1_2 : S64x64.BroadcastsInDim S1x64x64 (![1, 2] : Fin 2 → Fin S1x64x64.rank)
  concatenates_S1x64x64_S1x64x64_S2x64x64_d0 : Shape.Concatenates [S1x64x64, S1x64x64] S2x64x64 0
  shapeCasts_S2x64x64_S2x4096 : S2x64x64.ShapeCasts S2x4096
  bcast_S_S64 : S_.BroadcastsInDim S64 (![] : Fin 0 → Fin S64.rank)
  bcast_S64_S1x64x1_1 : S64.BroadcastsInDim S1x64x1 (![1] : Fin 1 → Fin S1x64x1.rank)
  bcast_S2x4096_S2x1x4096_0_2 : S2x4096.BroadcastsInDim S2x1x4096 (![0, 2] : Fin 2 → Fin S2x1x4096.rank)
  bcast_S2x1x4096_S2x64x4096_0_1_2 : S2x1x4096.BroadcastsInDim S2x64x4096 (![0, 1, 2] : Fin 3 → Fin S2x64x4096.rank)
  bcast_S1x64x1_S2x64x4096_0_1_2 : S1x64x1.BroadcastsInDim S2x64x4096 (![0, 1, 2] : Fin 3 → Fin S2x64x4096.rank)
  shapeCasts_S2x64x4096_S2x262144 : S2x64x4096.ShapeCasts S2x262144
  shapeCasts_S64x64_S4096 : S64x64.ShapeCasts S4096
  dot_S65536x128_S128x64_S65536x64_1_0_0_1_n_n_wf : DotDims.WF S65536x128 S128x64 S65536x64 [1] [0] [0] [1] [] []
  gather_S65536x64_S2097152x1_S2097152x64_1_0_n_n_0_1_164_wf : GatherDims.WF S65536x64 S2097152x1 S2097152x64 [1] [0] [] [0] [] 1 ![1, 64]
  scatter_S65536x64_S2097152x1_S2097152x64_1_0_0_1_wf : ScatterDims.WF S65536x64 S2097152x1 S2097152x64 [1] [0] [0] 1
  scatter_S64x1024x1024_S2097152x3_S2097152_n_012_012_1_wf : ScatterDims.WF S64x1024x1024 S2097152x3 S2097152 [] [0, 1, 2] [0, 1, 2] 1
  dot_S64x1024x64_S64x1024x128_S64x64x128_1_1_2_2_0_0_wf : DotDims.WF S64x1024x64 S64x1024x128 S64x64x128 [1] [1] [2] [2] [0] [0]
  dot_S64x1024x1024_S64x64x1024_S64x1024x64_1_2_2_1_0_0_wf : DotDims.WF S64x1024x1024 S64x64x1024 S64x1024x64 [1] [2] [2] [1] [0] [0]
  dot_S64x1024x64_S64x1024x64_S64x64x64_1_1_2_2_0_0_wf : DotDims.WF S64x1024x64 S64x1024x64 S64x64x64 [1] [1] [2] [2] [0] [0]

variable [Facts₀]

def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def gather_S65536x64_S2097152x1_S2097152x64_1_0_n_n_0_1_164 : GatherDims S65536x64 S2097152x1 S2097152x64 where
  offsetDims := [1]
  collapsedSliceDims := [0]
  operandBatchingDims := []
  startIndicesBatchingDims := []
  startIndexMap := [0]
  indexVectorDim := 1
  sliceSizes := ![1, 64]
  wf := gather_S65536x64_S2097152x1_S2097152x64_1_0_n_n_0_1_164_wf
def scatter_S65536x64_S2097152x1_S2097152x64_1_0_0_1 : ScatterDims S65536x64 S2097152x1 S2097152x64 where
  updateWindowDims := [1]
  insertedWindowDims := [0]
  scatterDimsToOperandDims := [0]
  indexVectorDim := 1
  wf := scatter_S65536x64_S2097152x1_S2097152x64_1_0_0_1_wf
def scatter_S64x1024x1024_S2097152x3_S2097152_n_012_012_1 : ScatterDims S64x1024x1024 S2097152x3 S2097152 where
  updateWindowDims := []
  insertedWindowDims := [0, 1, 2]
  scatterDimsToOperandDims := [0, 1, 2]
  indexVectorDim := 1
  wf := scatter_S64x1024x1024_S2097152x3_S2097152_n_012_012_1_wf
def dot_S64x1024x64_S64x1024x128_S64x64x128_1_1_2_2_0_0 : DotDims S64x1024x64 S64x1024x128 S64x64x128 where
  lhsContracting := [1]
  rhsContracting := [1]
  lhsNonContracting := [2]
  rhsNonContracting := [2]
  lhsBatch := [0]
  rhsBatch := [0]
  wf := dot_S64x1024x64_S64x1024x128_S64x64x128_1_1_2_2_0_0_wf
def dot_S64x1024x1024_S64x64x1024_S64x1024x64_1_2_2_1_0_0 : DotDims S64x1024x1024 S64x64x1024 S64x1024x64 where
  lhsContracting := [1]
  rhsContracting := [2]
  lhsNonContracting := [2]
  rhsNonContracting := [1]
  lhsBatch := [0]
  rhsBatch := [0]
  wf := dot_S64x1024x1024_S64x64x1024_S64x1024x64_1_2_2_1_0_0_wf
def dot_S64x1024x64_S64x1024x64_S64x64x64_1_1_2_2_0_0 : DotDims S64x1024x64 S64x1024x64 S64x64x64 where
  lhsContracting := [1]
  rhsContracting := [1]
  lhsNonContracting := [2]
  rhsNonContracting := [2]
  lhsBatch := [0]
  rhsBatch := [0]
  wf := dot_S64x1024x64_S64x1024x64_S64x64x64_1_1_2_2_0_0_wf

class Facts : Prop extends Facts₀ where

variable [Facts]
-- ==== Proof.KernelReads.lean ====
/-
  What the kernel program's buffers hold at its segment boundaries, read back through the fold:
  after region 0 the message array is what its eight write-backs leave and every other buffer is as launched;
  the host stretch between the regions gathers message rows at the wrapped source indices, scatter-adds them at
  the destination indices from zero, and lays agg, x and the bias out for region 1 (three reshapes);
  after region 1 the pooled array is what its sixteen write-backs leave; the last stretch flattens it and
  builds the two integer results.
-/
import proofs.«421208_j1632087572809_3_alg».proof.Proof.Gen.KernelIdeal.Frame
import Idealize.ShloMosaic.Lib.StableHlo.Run

set_option maxRecDepth 16384

noncomputable section

namespace Cert.KernelIdeal.Reads

open Cert.KernelIdeal Cert.KernelIdeal.Facts₀
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After region 0 -/

theorem V1_v0 (c : Dev nD) : Gen.V1 m ρ c main_v0 = (Gen.dat0 (Gen.V0 m ρ) c).arrAt 2 cfg0.N := (Gen.hF0 m ρ c 2).symm

theorem V1_arg0 (c : Dev nD) : Gen.V1 m ρ c main_arg0 = m ((c : Thread nD τ).loc main_arg0) :=
  (Gen.W1_arr m ρ c 0).trans (((Gen.dat0 (Gen.V0 m ρ) c).arrAt_in 0 rfl _).trans (Gen.A_eq0 (Gen.V0 m ρ) c 0))

theorem V1_arg1 (c : Dev nD) : Gen.V1 m ρ c main_arg1 = m ((c : Thread nD τ).loc main_arg1) := Gen.W1_of_ne m ρ c main_arg1 (by decide)
theorem V1_arg4 (c : Dev nD) : Gen.V1 m ρ c main_arg4 = m ((c : Thread nD τ).loc main_arg4) := Gen.W1_of_ne m ρ c main_arg4 (by decide)
theorem V1_arg5 (c : Dev nD) : Gen.V1 m ρ c main_arg5 = m ((c : Thread nD τ).loc main_arg5) := Gen.W1_of_ne m ρ c main_arg5 (by decide)

/-! ## The host stretch between the regions -/

/-- Row 0 and row 1 of the edge list as vectors. -/
def edgeRow0 (e : IVec S2x2097152 32) : IVec S2097152 32 :=
  shapeCast S2097152 (extractStridedSlice S1x2097152 ![0, 0] e slices_S2x2097152_S1x2097152_0_0) shapeCasts_S1x2097152_S2097152
def edgeRow1 (e : IVec S2x2097152 32) : IVec S2097152 32 :=
  shapeCast S2097152 (extractStridedSlice S1x2097152 ![1, 0] e slices_S2x2097152_S1x2097152_1_0) shapeCasts_S1x2097152_S2097152

/-- The source indices as a column, a negative one wrapped by the node count. -/
def srcK (e : IVec S2x2097152 32) : IVec S2097152x1 32 :=
  broadcastInDim S2097152x1 ![0] bcast_S2097152_S2097152x1_0
    (select (cmpi .slt (edgeRow0 e) (broadcastInDim S2097152 ![] bcast_S_S2097152 (constantI S_ 32 0#32)))
      (addi (edgeRow0 e) (broadcastInDim S2097152 ![] bcast_S_S2097152 (constantI S_ 32 65536#32))) (edgeRow0 e))

/-- The destination indices as a column. -/
def dstK (e : IVec S2x2097152 32) : IVec S2097152x1 32 :=
  broadcastInDim S2097152x1 ![0] bcast_S2097152_S2097152x1_0 (edgeRow1 e)

/-- The aggregation over the kernel's bf16 message array: rows gathered at the sources, widened, scatter-added at the
    destinations from zero. -/
def aggK (M : FVec F S65536x64 .bf16) (e : IVec S2x2097152 32) : FVec F S65536x64 .f32 :=
  Host.scatterAdd scatter_S65536x64_S2097152x1_S2097152x64_1_0_0_1
    (broadcastInDim S65536x64 ![] bcast_S_S65536x64 (constant S_ .f32 0x00000000#32)) (dstK e)
    (extf .f32 (Host.gather gather_S65536x64_S2097152x1_S2097152x64_1_0_n_n_0_1_164 M (srcK e)) bitsLt_bf16_f32)

theorem V2_v16 (c : Dev nD) :
    Gen.V2 m ρ c main_v16 = shapeCast S64x1024x64 (aggK (Gen.V1 m ρ c main_v0) (Gen.V1 m ρ c main_arg1)) shapeCasts_S65536x64_S64x1024x64 := by
  show StableHlo.after Gen.hostOps1 (Gen.W1 m ρ c) (Proc.devRef .tc main_v16) = _
  after_results
  rfl

theorem V2_v17 (c : Dev nD) : Gen.V2 m ρ c main_v17 = shapeCast S64x1024x128 (Gen.V1 m ρ c main_arg0) shapeCasts_S65536x128_S64x1024x128 := by
  show StableHlo.after Gen.hostOps1 (Gen.W1 m ρ c) (Proc.devRef .tc main_v17) = _
  after_results
  rfl

theorem V2_v18 (c : Dev nD) : Gen.V2 m ρ c main_v18 = shapeCast S1x1x64 (Gen.V1 m ρ c main_arg5) shapeCasts_S64_S1x1x64 := by
  show StableHlo.after Gen.hostOps1 (Gen.W1 m ρ c) (Proc.devRef .tc main_v18) = _
  after_results
  rfl

theorem V2_arg4 (c : Dev nD) : Gen.V2 m ρ c main_arg4 = Gen.V1 m ρ c main_arg4 := by
  show StableHlo.after Gen.hostOps1 (Gen.W1 m ρ c) (Proc.devRef .tc main_arg4) = _
  after_results

/-! ## After region 1, and the last stretch -/

theorem V3_v19 (c : Dev nD) : Gen.V3 m ρ c main_v19 = (Gen.dat1 (Gen.V2 m ρ) c).arrAt 4 cfg1.N := (Gen.hF1 m ρ c 4).symm

/-- The all-pairs grid of cluster numbers, two rows of 4096. -/
def gridK : IVec S2x4096 32 :=
  shapeCast S2x4096 (concatenate S2x64x64 0
    [⟨S1x64x64, broadcastInDim S1x64x64 ![1, 2] bcast_S64x64_S1x64x64_1_2 (broadcastInDim S64x64 ![0] bcast_S64_S64x64_0 (iotaInDim S64 32 0))⟩,
     ⟨S1x64x64, broadcastInDim S1x64x64 ![1, 2] bcast_S64x64_S1x64x64_1_2 (broadcastInDim S64x64 ![1] bcast_S64_S64x64_1 (iotaInDim S64 32 0))⟩]
    concatenates_S1x64x64_S1x64x64_S2x64x64_d0) shapeCasts_S2x64x64_S2x4096

/-- The grid repeated per graph, offset by 64 times the graph number. -/
def edgesK : IVec S2x262144 32 :=
  shapeCast S2x262144 (addi
    (broadcastInDim S2x64x4096 ![0, 1, 2] bcast_S2x1x4096_S2x64x4096_0_1_2 (broadcastInDim S2x1x4096 ![0, 2] bcast_S2x4096_S2x1x4096_0_2 gridK))
    (broadcastInDim S2x64x4096 ![0, 1, 2] bcast_S1x64x1_S2x64x4096_0_1_2 (broadcastInDim S1x64x1 ![1] bcast_S64_S1x64x1_1
      (muli (iotaInDim S64 32 0) (broadcastInDim S64 ![] bcast_S_S64 (constantI S_ 32 64#32))))))
    shapeCasts_S2x64x4096_S2x262144

/-- Each pooled cluster's graph number. -/
def batchK : IVec S4096 32 :=
  shapeCast S4096 (broadcastInDim S64x64 ![0] bcast_S64_S64x64_0 (iotaInDim S64 32 0)) shapeCasts_S64x64_S4096

theorem W4_v20 (c : Dev nD) :
    Gen.W4 m ρ c (Proc.devRef .tc main_v20) = shapeCast S4096x128 (Gen.V3 m ρ c main_v19) shapeCasts_S64x64x128_S4096x128 := by
  show StableHlo.after Gen.hostOps2 (Gen.W3 m ρ c) (Proc.devRef .tc main_v20) = _
  after_results
  rfl

theorem W4_v37 (c : Dev nD) : Gen.W4 m ρ c (Proc.devRef .tc main_v37) = edgesK := by
  show StableHlo.after Gen.hostOps2 (Gen.W3 m ρ c) (Proc.devRef .tc main_v37) = _
  after_results
  rfl

theorem W4_v40 (c : Dev nD) : Gen.W4 m ρ c (Proc.devRef .tc main_v40) = batchK := by
  show StableHlo.after Gen.hostOps2 (Gen.W3 m ρ c) (Proc.devRef .tc main_v40) = _
  after_results
  rfl

end Cert.KernelIdeal.Reads

end
-- ==== Proof.Spec.lean ====
/-
  The mathematics both programs compute, written once over Fin-indexed extended reals.

  Inputs: node features x [65536, 128], two weight matrices [128, 64], a bias [64].
  * msg: the per-node message, ELU of row r of x times column c of W_msg,
      elu y = y where y > 0, else e^y - 1.
  * score3: with the nodes laid out as 64 graphs of 1024 nodes, the score of node n of graph b for cluster k,
      tanh ((agg[b,n,k] + sum_j x[b,n,j] * W_root[j,k]) + bias[k]).
  * rowSoftmax: the softmax of one row of 64 scores, exp (r k - max r) / sum_k' exp (r k' - max r),
      the maximum taken from the bottom element, the quotient the extended reals' division.
  * pool3: out[b,k,c] = sum_n softmax(score[b,n,:])[k] * x[b,n,c].
-/
import Idealize.ShloMosaic.PureOps.Ideal
import Idealize.ShloMosaic.Lib.ValueIdx

noncomputable section

namespace Cert.Spec

open Idealize.ShloMosaic Idealize.ShloMosaic.ValueIdx

abbrev SX : Shape := ⟨2, ![65536, 128]⟩
abbrev SW : Shape := ⟨2, ![128, 64]⟩
abbrev SM : Shape := ⟨2, ![65536, 64]⟩
abbrev SA3 : Shape := ⟨3, ![64, 1024, 64]⟩
abbrev SX3 : Shape := ⟨3, ![64, 1024, 128]⟩
abbrev SB3 : Shape := ⟨3, ![1, 1, 64]⟩
abbrev SO3 : Shape := ⟨3, ![64, 64, 128]⟩

/-- ELU on the extended reals: `y` where `y > 0`, else `e^y - 1`. -/
def elu (y : EReal) : EReal := Scalar.select (Ideal.cmp .ogt y 0) y (Ideal.exp y - 1)

/-- The message of node `r`, channel `c`: ELU of row `r` of `x` times column `c` of `W`. -/
def msg (x : SX.Idx → EReal) (W : SW.Idx → EReal) : SM.Idx → EReal :=
  fun i => elu (∑ j : Fin 128, x (ix2 (i 0) j) * W (ix2 j (i 1)))

/-- The score of node `n` of graph `b` for cluster `k`. -/
def score3 (A3 : SA3.Idx → EReal) (X3 : SX3.Idx → EReal) (Wr : SW.Idx → EReal) (B3 : SB3.Idx → EReal)
    (b : Fin 64) (n : Fin 1024) (k : Fin 64) : EReal :=
  Ideal.tanh ((A3 (ix3 b n k) + ∑ j : Fin 128, X3 (ix3 b n j) * Wr (ix2 j k)) + B3 (ix3 0 0 k))

/-- The softmax of one row of 64 scores at entry `k`. -/
def rowSoftmax (r : Fin 64 → EReal) (k : Fin 64) : EReal :=
  Ideal.div (Ideal.exp (r k - (Finset.univ : Finset (Fin 64)).fold max ⊥ r))
    (∑ k' : Fin 64, Ideal.exp (r k' - (Finset.univ : Finset (Fin 64)).fold max ⊥ r))

/-- The pooled features: cluster `k` of graph `b`, channel `c`. -/
def pool3 (A3 : SA3.Idx → EReal) (X3 : SX3.Idx → EReal) (Wr : SW.Idx → EReal) (B3 : SB3.Idx → EReal) : SO3.Idx → EReal :=
  fun i => ∑ n : Fin 1024, rowSoftmax (score3 A3 X3 Wr B3 (i 0) n) (i 1) * X3 (ix3 (i 0) n (i 2))

end Cert.Spec

end
-- ==== Proof.OutSpec.lean ====
/-
  The first result as ONE function of the five arguments, the form both programs are read to:
  messages msg x W_msg; agg = the rows of msg gathered at the wrapped source indices and scatter-added at the
  destination indices from zero; agg, x and the bias laid out as 64 graphs of 1024 nodes; the pooled sums
  pool3; flattened to [4096, 128]. The gather and the scatter-add stay whole-array operations: both programs apply
  the same two operations to the same message array, so nothing about them is opened.
-/
import proofs.«421208_j1632087572809_3_alg».proof.Proof.KernelReads
import proofs.«421208_j1632087572809_3_alg».proof.Proof.Spec

noncomputable section

namespace Cert.OutSpec

open Idealize.ShloMosaic Cert.KernelIdeal Cert.KernelIdeal.Facts₀

/-- The pooled features, flat, as a function of x, the edge list, W_msg, W_root and the bias. -/
def outS (x : FVec Ideal S65536x128 .f32) (e : IVec S2x2097152 32) (Wm Wr : FVec Ideal S128x64 .f32) (b : FVec Ideal S64 .f32) :
    FVec Ideal S4096x128 .f32 :=
  shapeCast S4096x128
    (Cert.Spec.pool3
      (shapeCast S64x1024x64 (Cert.KernelIdeal.Reads.aggK (F := Ideal) (Cert.Spec.msg x Wm) e) shapeCasts_S65536x64_S64x1024x64)
      (shapeCast S64x1024x128 x shapeCasts_S65536x128_S64x1024x128) Wr (shapeCast S1x1x64 b shapeCasts_S64_S1x1x64))
    shapeCasts_S64x64x128_S4096x128

end Cert.OutSpec

end
-- ==== Proof.RefTerms.lean ====
/-
  The reference's value, stage by stage, as whole-array terms over its own host operations:
  the ELU jax.nn.elu prints (two compares with zero, the inner select that keeps expm1's argument
  non-positive, the product with one, the outer select), the source indices with negatives wrapped by
  65536, the gather of message rows, the scatter-add at the destination indices from a zero array, the
  score tanh ((agg + x W_root) + bias), the row softmax (maximum from the bottom element and once more
  against it, the difference, the exponential, its row sum from zero, the quotient), the pooling product
  batched over the 64 graphs and contracted over the 1024 nodes, and the two reshapes around it. The two
  integer results are the all-pairs cluster edges offset by 64 per graph and each cluster's graph number.
-/
import proofs.«421208_j1632087572809_3_alg».proof.ReferenceIdeal

noncomputable section

namespace Cert.RefTerms

open Idealize.ShloMosaic Cert.ReferenceIdeal Cert.ReferenceIdeal.Facts₀

variable {F : FTy → Type} [FloatOps F] [Cert.ReferenceIdeal.Facts]

/-- The zero array the ELU compares against. -/
def zeroM : FVec F S65536x64 .f32 := broadcastInDim S65536x64 ![] bcast_S_S65536x64 (constant S_ .f32 0x00000000#32)

/-- jax.nn.elu as printed: `where (y > 0) y (1 * expm1 (where (y > 0) 0 y))`. -/
def eluT (y : FVec F S65536x64 .f32) : FVec F S65536x64 .f32 :=
  select (cmpf .ogt y zeroM) y
    (mulf (broadcastInDim S65536x64 ![] bcast_S_S65536x64 (constant S_ .f32 0x3F800000#32))
      (Host.expm1 (select (cmpf .ogt y zeroM) (broadcastInDim S65536x64 ![] bcast_S_S65536x64 (constant S_ .f32 0x00000000#32)) y)))

/-- The messages: ELU of x times W_msg. -/
def msgT (x : FVec F S65536x128 .f32) (Wm : FVec F S128x64 .f32) : FVec F S65536x64 .f32 :=
  eluT (Host.dotGeneral dot_S65536x128_S128x64_S65536x64_1_0_0_1_n_n none x Wm)

/-- Row `r` of the edge list as a vector of 2097152 node numbers. -/
def edgeRow0 (e : IVec S2x2097152 32) : IVec S2097152 32 :=
  shapeCast S2097152 (extractStridedSlice S1x2097152 ![0, 0] e slices_S2x2097152_S1x2097152_0_0) shapeCasts_S1x2097152_S2097152
def edgeRow1 (e : IVec S2x2097152 32) : IVec S2097152 32 :=
  shapeCast S2097152 (extractStridedSlice S1x2097152 ![1, 0] e slices_S2x2097152_S1x2097152_1_0) shapeCasts_S1x2097152_S2097152

/-- The source indices as a column, a negative one wrapped by the node count. -/
def srcT (e : IVec S2x2097152 32) : IVec S2097152x1 32 :=
  broadcastInDim S2097152x1 ![0] bcast_S2097152_S2097152x1_0
    (select (cmpi .slt (edgeRow0 e) (broadcastInDim S2097152 ![] bcast_S_S2097152 (constantI S_ 32 0#32)))
      (addi (edgeRow0 e) (broadcastInDim S2097152 ![] bcast_S_S2097152 (constantI S_ 32 65536#32))) (edgeRow0 e))

/-- The destination indices as a column. -/
def dstT (e : IVec S2x2097152 32) : IVec S2097152x1 32 :=
  broadcastInDim S2097152x1 ![0] bcast_S2097152_S2097152x1_0 (edgeRow1 e)

/-- The aggregation: message rows gathered at the sources, scatter-added at the destinations from zero. -/
def aggT (M : FVec F S65536x64 .f32) (e : IVec S2x2097152 32) : FVec F S65536x64 .f32 :=
  Host.scatterAdd scatter_S65536x64_S2097152x1_S2097152x64_1_0_0_1
    (broadcastInDim S65536x64 ![] bcast_S_S65536x64 (constant S_ .f32 0x00000000#32)) (dstT e)
    (Host.gather gather_S65536x64_S2097152x1_S2097152x64_1_0_n_n_0_1_164 M (srcT e))

/-- The scores, flat: tanh ((agg + x W_root) + bias). -/
def scoreT (agg : FVec F S65536x64 .f32) (x : FVec F S65536x128 .f32) (Wr : FVec F S128x64 .f32) (b : FVec F S64 .f32) :
    FVec F S65536x64 .f32 :=
  Host.tanh (addf (addf agg (Host.dotGeneral dot_S65536x128_S128x64_S65536x64_1_0_0_1_n_n none x Wr))
    (broadcastInDim S65536x64 ![0, 1] bcast_S1x64_S65536x64_0_1 (broadcastInDim S1x64 ![1] bcast_S64_S1x64_1 b)))

/-- A row maximum of the scores, from the bottom element, and once more against it. -/
def rowMaxT (s : FVec F S64x1024x64 .f32) : FVec F S64x1024 .f32 :=
  maximumf (broadcastInDim S64x1024 ![] bcast_S_S64x1024 (constant S_ .f32 0xFF800000#32))
    (Host.reduce FloatOps.maximumf s (constant S_ .f32 0xFF800000#32) reducesTo_S64x1024x64_S64x1024_d2 h_S_)

/-- A [64,1024] array laid along the last axis of [64,1024,64]. -/
def alongK (v : FVec F S64x1024 .f32) : FVec F S64x1024x64 .f32 :=
  broadcastInDim S64x1024x64 ![0, 1, 2] bcast_S64x1024x1_S64x1024x64_0_1_2 (broadcastInDim S64x1024x1 ![0, 1] bcast_S64x1024_S64x1024x1_0_1 v)

/-- The exponentials of the scores less their row maximum. -/
def expT (s : FVec F S64x1024x64 .f32) : FVec F S64x1024x64 .f32 :=
  Host.exp (subf s (alongK (rowMaxT s)))

/-- The row softmax. -/
def smxT (s : FVec F S64x1024x64 .f32) : FVec F S64x1024x64 .f32 :=
  Host.divf (expT s) (alongK (Host.reduceAdd (expT s) (constant S_ .f32 0x00000000#32) reducesTo_S64x1024x64_S64x1024_d2 h_S_))

/-- The pooling product. -/
def poolT (s3 : FVec F S64x1024x64 .f32) (x3 : FVec F S64x1024x128 .f32) : FVec F S64x64x128 .f32 :=
  Host.dotGeneral dot_S64x1024x64_S64x1024x128_S64x64x128_1_1_2_2_0_0 none (smxT s3) x3

/-- The nodes' features and scores laid out as 64 graphs of 1024 nodes. -/
def x3T (x : FVec F S65536x128 .f32) : FVec F S64x1024x128 .f32 := shapeCast S64x1024x128 x shapeCasts_S65536x128_S64x1024x128
def s3T (s : FVec F S65536x64 .f32) : FVec F S64x1024x64 .f32 := shapeCast S64x1024x64 s shapeCasts_S65536x64_S64x1024x64

/-- The first result: the pooled features, flat. -/
def outT (x : FVec F S65536x128 .f32) (e : IVec S2x2097152 32) (Wm Wr : FVec F S128x64 .f32) (b : FVec F S64 .f32) : FVec F S4096x128 .f32 :=
  shapeCast S4096x128 (poolT (s3T (scoreT (aggT (msgT x Wm) e) x Wr b)) (x3T x)) shapeCasts_S64x64x128_S4096x128

/-- The all-pairs grid of cluster numbers, two rows of 4096. -/
def gridT : IVec S2x4096 32 :=
  shapeCast S2x4096 (concatenate S2x64x64 0
    [⟨S1x64x64, broadcastInDim S1x64x64 ![1, 2] bcast_S64x64_S1x64x64_1_2 (broadcastInDim S64x64 ![0] bcast_S64_S64x64_0 (iotaInDim S64 32 0))⟩,
     ⟨S1x64x64, broadcastInDim S1x64x64 ![1, 2] bcast_S64x64_S1x64x64_1_2 (broadcastInDim S64x64 ![1] bcast_S64_S64x64_1 (iotaInDim S64 32 0))⟩]
    concatenates_S1x64x64_S1x64x64_S2x64x64_d0) shapeCasts_S2x64x64_S2x4096

/-- The second result: the grid repeated per graph, offset by 64 times the graph number. -/
def edgesT : IVec S2x262144 32 :=
  shapeCast S2x262144 (addi
    (broadcastInDim S2x64x4096 ![0, 1, 2] bcast_S2x1x4096_S2x64x4096_0_1_2 (broadcastInDim S2x1x4096 ![0, 2] bcast_S2x4096_S2x1x4096_0_2 gridT))
    (broadcastInDim S2x64x4096 ![0, 1, 2] bcast_S1x64x1_S2x64x4096_0_1_2 (broadcastInDim S1x64x1 ![1] bcast_S64_S1x64x1_1
      (muli (iotaInDim S64 32 0) (broadcastInDim S64 ![] bcast_S_S64 (constantI S_ 32 64#32))))))
    shapeCasts_S2x64x4096_S2x262144

/-- The third result: each pooled cluster's graph number. -/
def batchT : IVec S4096 32 :=
  shapeCast S4096 (broadcastInDim S64x64 ![0] bcast_S64_S64x64_0 (iotaInDim S64 32 0)) shapeCasts_S64x64_S4096

end Cert.RefTerms

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.Region0.lean ====
/-
  Region 0 of the kernel, the node messages, on both sides.

  The kernel's first call runs over 8 row blocks of 8192 nodes. At each it forms the product of its block of x
  [8192, 128] with W_msg [128, 64] into a zero accumulator and stores ELU of it, y where y > 0 and e^y - 1
  elsewhere. Entry (p, q) of that block is ELU of the sum over the 128 shared coordinates of x[p, k] W[k, q]; the
  block at point t holds rows 8192 t … 8192 t + 8191 of x, so what point t writes back is block t of ONE
  whole-array function, the specification's msg; every row r lies in the block of point r / 8192, hence the array
  after the 8 points is msg of the arrays the region found.

  The reference forms the same product over the whole array and applies ELU in the spelling
  where (y > 0) y (1 * expm1 (where (y > 0) 0 y)): both tests are y > 0; where it holds both sides are y, where it
  fails the inner select keeps y and the value is e^y - 1.
-/
import proofs.«421208_j1632087572809_3_alg».proof.Proof.Gen.KernelIdeal.Frame
import proofs.«421208_j1632087572809_3_alg».proof.Proof.Spec
import proofs.«421208_j1632087572809_3_alg».proof.Proof.RefTerms
import proofs.«421208_j1632087572809_3_alg».proof.Proof.LibMatProd
import Idealize.ShloMosaic.Lib.IdealHost
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal.Gen

/-! ## The kernel's block, entry by entry -/

theorem origin_eq_zero : (![0, 0] : Fin 2 → Nat) = fun _ => 0 := funext fun a => by fin_cases a <;> rfl

/-- The block's product before the ELU: rows of the block of `x` times columns of `W`, added onto zero. -/
abbrev blockProd (x0 : Vec Ideal S8192x128 .f32) (x1 : Vec Ideal S128x64 .f32) : FVec Ideal S8192x64 .f32 :=
  matmul dot_S8192x128_S128x64_S8192x64_1_0_0_1_n_n none (truncf .bf16 x0 bitsLt_bf16_f32) (truncf .bf16 x1 bitsLt_bf16_f32)
    (constant S8192x64 .f32 0x00000000#32)

/-- Its entry `(p, q)` is the sum over the 128 shared coordinates (the two format changes are the identity). -/
theorem blockProd_apply (x0 : Vec Ideal S8192x128 .f32) (x1 : Vec Ideal S128x64 .f32) (p : Fin 8192) (q : Fin 64) :
    blockProd x0 x1 (ix2 p q) = ∑ k : Fin 128, x0 (ix2 p k) * x1 (ix2 k q) :=
  Cert.LibMatProd.matmul_zero_apply dot_S8192x128_S128x64_S8192x64_1_0_0_1_n_n rfl none
    (truncf .bf16 x0 bitsLt_bf16_f32) (truncf .bf16 x1 bitsLt_bf16_f32) p q

/-- What the body stores at entry `(p, q)` of its block: ELU of that sum. -/
theorem stored_apply (x0 : Vec Ideal S8192x128 .f32) (x1 : Vec Ideal S128x64 .f32) (p : Fin 8192) (q : Fin 64) :
    Gen.k0_pay1 (F := Ideal) x0 x1 (ix2 p q) = Cert.Spec.elu (∑ k : Fin 128, x0 (ix2 p k) * x1 (ix2 k q)) := by
  refine Eq.trans ?_ (congrArg Cert.Spec.elu (blockProd_apply x0 x1 p q))
  show Scalar.select (Ideal.cmp .ogt (blockProd x0 x1 (ix2 p q)) (Ideal.ofBits .f32 0x00000000#32)) (blockProd x0 x1 (ix2 p q))
      (Ideal.exp (blockProd x0 x1 (ix2 p q)) - Ideal.ofBits .f32 0x3F800000#32) = _
  rw [Ideal.ofBits_zero_f32, Ideal.ofBits_one_f32]
  rfl

/-- A block entry against an array entry: if row `p` of the block of `x` is row `i 0` of `X` and column `q` of the
    block of `W` is column `i 1` of `W`, the body's entry `(p, q)` is the message at `i`. -/
theorem entry_eq_msg (X : Cert.Spec.SX.Idx → EReal) (W : Cert.Spec.SW.Idx → EReal)
    (x0 : Vec Ideal S8192x128 .f32) (x1 : Vec Ideal S128x64 .f32) (p : Fin 8192) (q : Fin 64) (i : Cert.Spec.SM.Idx)
    (h0 : ∀ k : Fin 128, x0 (ix2 p k) = X (ix2 (i 0) k))
    (h1 : ∀ k : Fin 128, x1 (ix2 k q) = W (ix2 k (i 1))) :
    Gen.k0_pay1 (F := Ideal) x0 x1 (ix2 p q) = Cert.Spec.msg X W i := by
  rw [stored_apply]
  exact congrArg Cert.Spec.elu (Finset.sum_congr rfl fun k _ => by rw [h0 k, h1 k])

/-! ## From blocks to the array -/

/-- The index maps over the grid: the block of `x` moves with the output's block along the rows and sits at column
    block 0, `W`'s one block is block (0, 0), and the output's block at point `t` is row block `t`, column block 0. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the messages of the arrays as the region finds them. -/
theorem written_back_eq (V : (c : Dev nD) → (b : Ref sig .tc) → Buf (Elt Ideal) ((c : Thread nD τ).loc b)) (c : Dev nD) (t : Fin cfg0.N) :
    (Gen.dat0 (F := Ideal) V c).flushed 2 t
      = ((cfg0.win 2).blk t).view.read (Elt Ideal) (Cert.Spec.msg (V c main_arg0) (V c main_arg3)) := by
  show (cfg0.win 2).cut (grid0.coords t) ((Gen.dat0 V c).after 2 t) = _
  rw [Gen.after0_2]
  unfold Gen.out0_2
  rw [View.canon_unit_zero origin_eq_zero]
  simp only [View.ld_unit_zero (S := S8192x128) origin_eq_zero, View.ld_unit_zero (S := S128x64) origin_eq_zero]
  obtain ⟨e0, e1, e2, e3, e4, e5⟩ := block_indices t
  funext j
  show Gen.k0_pay1 (F := Ideal) (Gen.iblk0 V c 0 t) (Gen.iblk0 V c 1 t) j
      = Cert.Spec.msg (V c main_arg0) (V c main_arg3) (((cfg0.win 2).blk t).view.emb j)
  refine (congrArg (Gen.k0_pay1 (F := Ideal) (Gen.iblk0 V c 0 t) (Gen.iblk0 V c 1 t)) (eq_ix2 (n0 := 8192) (n1 := 64) j)).trans ?_
  refine entry_eq_msg _ _ _ _ (j 0) (j 1) (((cfg0.win 2).blk t).view.emb j) (fun k => ?_) (fun k => ?_)
  · -- row `j 0` of the block of `x` is the row of `x` the output's block has at `j 0`
    show V c main_arg0 (((cfg0.win 0).blk t).view.emb (ix2 (j 0) k)) = V c main_arg0 (ix2 ((((cfg0.win 2).blk t).view.emb j) 0) k)
    congr 1
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * k.val = k.val; omega
  · -- column `j 1` of `W`'s one block is that column of `W`
    show V c main_arg3 (((cfg0.win 1).blk t).view.emb (ix2 k (j 1))) = V c main_arg3 (ix2 k ((((cfg0.win 2).blk t).view.emb j) 1))
    congr 1
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the array is in point `t`'s block iff each coordinate is in the block's range on its axis. -/
theorem mem_out_block (t : Fin cfg0.N) (i : S65536x64.Idx) :
    i ∈ ((cfg0.win 2).blk t).view.set ↔ ∀ a : Fin 2, win0_2.index t a * S8192x64.size a ≤ (i a).val
      ∧ (i a).val < win0_2.index t a * S8192x64.size a + S8192x64.size a := by
  show i ∈ ((View.whole main_v0).slice (win0_2.rect t)).set ↔ _
  rw [View.set_slice_whole, Rect.mem_set_unit]
  exact Iff.rfl

/-- Every index of the array is in some point's block: row `r` in the block of point `r / 8192`. -/
theorem row_covered (i : S65536x64.Idx) : ∃ t : Fin cfg0.N, (cfg0.win 2).flush t = true ∧ i ∈ ((cfg0.win 2).blk t).view.set := by
  have hi0 : (i 0).val < 65536 := idx2_lt0 i
  have hi1 : (i 1).val < 64 := idx2_lt1 i
  have hN : cfg0.N = 8 := N_0
  have ht : (i 0).val / 8192 < cfg0.N := by rw [hN]; omega
  obtain ⟨-, -, -, -, e4, e5⟩ := block_indices ⟨(i 0).val / 8192, ht⟩
  have e4' : win0_2.index ⟨(i 0).val / 8192, ht⟩ (0 : Fin 2) = (i 0).val / 8192 := e4
  refine ⟨⟨(i 0).val / 8192, ht⟩, flush0_2 _, ?_⟩
  rw [mem_out_block]
  intro a
  match a with
  | ⟨0, _⟩ =>
    show win0_2.index ⟨(i 0).val / 8192, ht⟩ (0 : Fin 2) * 8192 ≤ (i 0).val
      ∧ (i 0).val < win0_2.index ⟨(i 0).val / 8192, ht⟩ (0 : Fin 2) * 8192 + 8192
    rw [e4']; omega
  | ⟨1, _⟩ =>
    show win0_2.index ⟨(i 0).val / 8192, ht⟩ (1 : Fin 2) * 64 ≤ (i 1).val
      ∧ (i 1).val < win0_2.index ⟨(i 0).val / 8192, ht⟩ (1 : Fin 2) * 64 + 64
    rw [e5]; omega

/-- THE ARRAY after the 8 points: the messages of the arrays as the region found them, index by index. -/
theorem arr_eq (V : (c : Dev nD) → (b : Ref sig .tc) → Buf (Elt Ideal) ((c : Thread nD τ).loc b)) (c : Dev nD) :
    (Gen.dat0 (F := Ideal) V c).arrAt 2 cfg0.N = Cert.Spec.msg (V c main_arg0) (V c main_arg3) :=
  (Gen.dat0 (F := Ideal) V c).arrAt_eq_of_cover 2 (Cert.Spec.msg (V c main_arg0) (V c main_arg3))
    (fun t _ => written_back_eq V c t) row_covered

/-! ## The reference's message term is the specification's -/

/-- ELU as the reference spells it, at one entry: both of its selects test `y > 0`; where the test holds both
    sides are `y`, where it fails the reference has `1 * (e^y - 1)`, the inner select having kept `y`. -/
theorem eluT_apply [Cert.ReferenceIdeal.Facts] (y : FVec Ideal Cert.ReferenceIdeal.S65536x64 .f32) (i : Cert.ReferenceIdeal.S65536x64.Idx) :
    Cert.RefTerms.eluT (F := Ideal) y i = Cert.Spec.elu (y i) := by
  show Scalar.select (Ideal.cmp .ogt (y i) (Ideal.ofBits .f32 0x00000000#32)) (y i)
      (Ideal.ofBits .f32 0x3F800000#32 * (Ideal.exp (Scalar.select (Ideal.cmp .ogt (y i) (Ideal.ofBits .f32 0x00000000#32))
        (Ideal.ofBits .f32 0x00000000#32) (y i)) - 1)) = Scalar.select (Ideal.cmp .ogt (y i) 0) (y i) (Ideal.exp (y i) - 1)
  rw [Ideal.ofBits_zero_f32, Ideal.ofBits_one_f32, one_mul]
  rcases BitVec.eq_zero_or_eq_one (Ideal.cmp .ogt (y i) 0) with h | h
  · rw [h, select_zero, select_zero, select_zero]
  · rw [h, select_one, select_one]

/-- The reference's messages: ELU of the row-by-column sums. -/
theorem msgT_eq [Cert.ReferenceIdeal.Facts] (x : FVec Ideal Cert.ReferenceIdeal.S65536x128 .f32) (W : FVec Ideal Cert.ReferenceIdeal.S128x64 .f32) :
    Cert.RefTerms.msgT (F := Ideal) x W = Cert.Spec.msg x W := by
  funext i
  obtain ⟨r, c, rfl⟩ : ∃ (r : Fin 65536) (c : Fin 64), i = ix2 r c := ⟨i 0, i 1, eq_ix2 i⟩
  unfold Cert.RefTerms.msgT Cert.Spec.msg
  rw [eluT_apply]
  exact congrArg Cert.Spec.elu (Cert.LibMatProd.dotGeneral_apply _ rfl none x W r c)

end Cert.KernelIdeal.Region0

end
-- ==== Proof.Region1a.lean ====
/-
  The pooling kernel's payload at an index.

  One grid point holds a block of four graphs: aggregated messages [4, 1024, 64], node features [4, 1024, 128], the root
  weights [128, 64] and the bias [1, 1, 64]. The body flattens the features to [4096, 128], multiplies by the weights into
  zero, reshapes back, adds the messages and the bias and takes tanh: the score of node n of graph g for cluster k is
  tanh ((a[g,n,k] + sum_j x[g,n,j] * w[j,k]) + b[k]). Along the cluster axis it then takes the row maximum from the bottom
  element, subtracts, exponentiates, sums the row from zero and divides: the row softmax. Last it contracts the softmax
  with the features over the 1024 nodes, graph by graph: entry (g, k, c) is sum_n softmax(score[g,n,:])[k] * x[g,n,c].

  The reshapes are read through row-major positions (row g * 1024 + n of the flat block is node n of graph g), the two
  reductions through the index with the cluster coordinate inserted, the plain product through the general lemma for an
  A x K by K x B product, and the batched product through its own axis-by-axis reading: batch axis from the entry's graph,
  contracted axis from the summation index, the remaining axis from the entry's cluster (left) or channel (right).
-/
import proofs.«421208_j1632087572809_3_alg».proof.Proof.Gen.KernelIdeal.Skeleton
import proofs.«421208_j1632087572809_3_alg».proof.Proof.Spec
import proofs.«421208_j1632087572809_3_alg».proof.Proof.LibMatProd
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Region1

open Idealize.ShloMosaic Idealize.ShloMosaic.ValueIdx Cert.KernelIdeal Cert.KernelIdeal.Facts₀

/-! ## The batched product: one batch axis, one contracted axis -/

theorem lhsB_0 (i : S4x64x128.Idx) (q : dot_S4x1024x64_S4x1024x128_S4x64x128_1_1_2_2_0_0.contr.Idx) :
    (dot_S4x1024x64_S4x1024x128_S4x64x128_1_1_2_2_0_0.lhsIdx i q 0).val = (i 0).val := by
  unfold DotDims.lhsIdx
  rw [dif_pos (show (0 : Fin S4x1024x64.rank) ∈ dot_S4x1024x64_S4x1024x128_S4x64x128_1_1_2_2_0_0.lhsBatch from List.mem_singleton.2 rfl)]
  rfl
theorem lhsB_1 (i : S4x64x128.Idx) (q : dot_S4x1024x64_S4x1024x128_S4x64x128_1_1_2_2_0_0.contr.Idx) :
    (dot_S4x1024x64_S4x1024x128_S4x64x128_1_1_2_2_0_0.lhsIdx i q 1).val = (q ⟨0, Nat.one_pos⟩).val :=
  dot_S4x1024x64_S4x1024x128_S4x64x128_1_1_2_2_0_0.lhsIdx_val_of_single rfl i q
theorem lhsB_2 (i : S4x64x128.Idx) (q : dot_S4x1024x64_S4x1024x128_S4x64x128_1_1_2_2_0_0.contr.Idx) :
    (dot_S4x1024x64_S4x1024x128_S4x64x128_1_1_2_2_0_0.lhsIdx i q 2).val = (i 1).val := by
  unfold DotDims.lhsIdx
  rw [dif_neg (show ¬(2 : Fin S4x1024x64.rank) ∈ dot_S4x1024x64_S4x1024x128_S4x64x128_1_1_2_2_0_0.lhsBatch by decide),
    dif_pos (show (2 : Fin S4x1024x64.rank) ∈ dot_S4x1024x64_S4x1024x128_S4x64x128_1_1_2_2_0_0.lhsNonContracting from List.mem_singleton.2 rfl)]
  rfl
theorem rhsB_0 (i : S4x64x128.Idx) (q : dot_S4x1024x64_S4x1024x128_S4x64x128_1_1_2_2_0_0.contr.Idx) :
    (dot_S4x1024x64_S4x1024x128_S4x64x128_1_1_2_2_0_0.rhsIdx i q 0).val = (i 0).val := by
  unfold DotDims.rhsIdx
  rw [dif_pos (show (0 : Fin S4x1024x128.rank) ∈ dot_S4x1024x64_S4x1024x128_S4x64x128_1_1_2_2_0_0.rhsBatch from List.mem_singleton.2 rfl)]
  rfl
theorem rhsB_1 (i : S4x64x128.Idx) (q : dot_S4x1024x64_S4x1024x128_S4x64x128_1_1_2_2_0_0.contr.Idx) :
    (dot_S4x1024x64_S4x1024x128_S4x64x128_1_1_2_2_0_0.rhsIdx i q 1).val = (q ⟨0, Nat.one_pos⟩).val :=
  dot_S4x1024x64_S4x1024x128_S4x64x128_1_1_2_2_0_0.rhsIdx_val_of_single rfl i q
theorem rhsB_2 (i : S4x64x128.Idx) (q : dot_S4x1024x64_S4x1024x128_S4x64x128_1_1_2_2_0_0.contr.Idx) :
    (dot_S4x1024x64_S4x1024x128_S4x64x128_1_1_2_2_0_0.rhsIdx i q 2).val = (i 2).val := by
  unfold DotDims.rhsIdx
  rw [dif_neg (show ¬(2 : Fin S4x1024x128.rank) ∈ dot_S4x1024x64_S4x1024x128_S4x64x128_1_1_2_2_0_0.rhsBatch by decide),
    dif_pos (show (2 : Fin S4x1024x128.rank) ∈ dot_S4x1024x64_S4x1024x128_S4x64x128_1_1_2_2_0_0.rhsNonContracting from List.mem_singleton.2 rfl)]
  rfl

/-- The sum over the contraction index of the batched product is the sum over the 1024 nodes. -/
theorem batched_sum (l : S4x1024x64.Idx → EReal) (r : S4x1024x128.Idx → EReal) (g : Fin 4) (k : Fin 64) (cc : Fin 128) :
    (∑ q : dot_S4x1024x64_S4x1024x128_S4x64x128_1_1_2_2_0_0.contr.Idx, l (dot_S4x1024x64_S4x1024x128_S4x64x128_1_1_2_2_0_0.lhsIdx (ix3 g k cc) q) * r (dot_S4x1024x64_S4x1024x128_S4x64x128_1_1_2_2_0_0.rhsIdx (ix3 g k cc) q))
      = ∑ n : Fin 1024, l (ix3 g n k) * r (ix3 g n cc) := by
  rw [← Equiv.sum_comp (contrEquiv1 dot_S4x1024x64_S4x1024x128_S4x64x128_1_1_2_2_0_0 1024 rfl rfl).symm]
  refine Finset.sum_congr rfl fun n _ => ?_
  have hn := contrEquiv1_symm_val dot_S4x1024x64_S4x1024x128_S4x64x128_1_1_2_2_0_0 1024 rfl rfl n
  have el : dot_S4x1024x64_S4x1024x128_S4x64x128_1_1_2_2_0_0.lhsIdx (ix3 g k cc) ((contrEquiv1 dot_S4x1024x64_S4x1024x128_S4x64x128_1_1_2_2_0_0 1024 rfl rfl).symm n) = ix3 g n k :=
    funext fun ax => Fin.ext (by
      match ax with
      | ⟨0, _⟩ => exact lhsB_0 _ _
      | ⟨1, _⟩ => exact (lhsB_1 _ _).trans hn
      | ⟨2, _⟩ => exact lhsB_2 _ _)
  have er : dot_S4x1024x64_S4x1024x128_S4x64x128_1_1_2_2_0_0.rhsIdx (ix3 g k cc) ((contrEquiv1 dot_S4x1024x64_S4x1024x128_S4x64x128_1_1_2_2_0_0 1024 rfl rfl).symm n) = ix3 g n cc :=
    funext fun ax => Fin.ext (by
      match ax with
      | ⟨0, _⟩ => exact rhsB_0 _ _
      | ⟨1, _⟩ => exact (rhsB_1 _ _).trans hn
      | ⟨2, _⟩ => exact rhsB_2 _ _)
  rw [el, er]

/-- The batched product into a zero accumulator at entry (g, k, cc). -/
theorem batched_apply {φ₁ φ₂ : FTy} (prec : Option ContractPrecision) (lhs : FVec Ideal S4x1024x64 φ₁) (rhs : FVec Ideal S4x1024x128 φ₂)
    (g : Fin 4) (k : Fin 64) (cc : Fin 128) :
    matmul dot_S4x1024x64_S4x1024x128_S4x64x128_1_1_2_2_0_0 prec lhs rhs (constant S4x64x128 .f32 0x00000000#32) (ix3 g k cc)
      = ∑ n : Fin 1024, lhs (ix3 g n k) * rhs (ix3 g n cc) :=
  (Ideal.matmul_constant_zero_apply _ prec lhs rhs (ix3 g k cc)).trans (batched_sum lhs rhs g k cc)

/-! ## Layout reads over the block's literal shapes -/

/-- Row `g * 1024 + n` of the flattened block. -/
def row (g : Fin 4) (n : Fin 1024) : Fin 4096 := ⟨g.val * 1024 + n.val, by omega⟩

/-- [4,1024,128] viewed [4096,128]: row `g * 1024 + n` is node `n` of graph `g`. -/
theorem flat_apply {α : Type} (v : S4x1024x128.Idx → α) (h : S4x1024x128.ShapeCasts S4096x128) (g : Fin 4) (n : Fin 1024) (j : Fin 128) :
    shapeCast S4096x128 v h (ix2 (row g n) j) = v (ix3 g n j) :=
  shapeCast_apply v h _ _ (by
    rw [Shape.rowMajor_val_three, Shape.rowMajor_val_two]
    show (g.val * 1024 + n.val) * 128 + j.val = (g.val * 1024 + n.val) * 128 + j.val
    rfl)

/-- [4096,64] viewed [4,1024,64]: node `n` of graph `g` is row `g * 1024 + n`. -/
theorem unflat_apply {α : Type} (v : S4096x64.Idx → α) (h : S4096x64.ShapeCasts S4x1024x64) (g : Fin 4) (n : Fin 1024) (k : Fin 64) :
    shapeCast S4x1024x64 v h (ix3 g n k) = v (ix2 (row g n) k) :=
  shapeCast_apply v h _ _ (by
    rw [Shape.rowMajor_val_three, Shape.rowMajor_val_two]
    show (g.val * 1024 + n.val) * 64 + k.val = (g.val * 1024 + n.val) * 64 + k.val
    rfl)

/-- The bias [1,1,64] broadcast over graphs and nodes. -/
theorem bias_apply {α : Type} (v : S1x1x64.Idx → α) (h : S1x1x64.Broadcasts S4x1024x64) (g : Fin 4) (n : Fin 1024) (k : Fin 64) :
    broadcastTo S4x1024x64 v h (ix3 g n k) = v (ix3 0 0 k) := by
  refine broadcastTo_apply v h (ix3 g n k) (ix3 0 0 k) fun ax => ?_
  match ax with
  | ⟨0, _⟩ => rfl
  | ⟨1, _⟩ => rfl
  | ⟨2, _⟩ => rfl

/-- A per-node value [4,1024] as a column [4,1024,1]. -/
theorem col_apply {α : Type} (v : S4x1024.Idx → α) (h : S4x1024.ShapeCasts S4x1024x1) (g : Fin 4) (n : Fin 1024) (u : Fin 1) :
    shapeCast S4x1024x1 v h (ix3 g n u) = v (ix2 g n) :=
  shapeCast_apply v h _ _ (by
    have hu : u.val = 0 := by omega
    rw [Shape.rowMajor_val_three, Shape.rowMajor_val_two]
    show g.val * 1024 + n.val = (g.val * 1024 + n.val) * 1 + u.val
    omega)

/-- The column [4,1024,1] broadcast along the 64 clusters. -/
theorem colBcast_apply {α : Type} (v : S4x1024x1.Idx → α) (h : S4x1024x1.Broadcasts S4x1024x64) (g : Fin 4) (n : Fin 1024) (k : Fin 64) :
    broadcastTo S4x1024x64 v h (ix3 g n k) = v (ix3 g n 0) := by
  refine broadcastTo_apply v h (ix3 g n k) (ix3 g n 0) fun ax => ?_
  match ax with
  | ⟨0, _⟩ => rfl
  | ⟨1, _⟩ => rfl
  | ⟨2, _⟩ => rfl

/-- The index over node (g, n) with cluster `k'` inserted on the reduced axis. -/
theorem lift_eq (g : Fin 4) (n : Fin 1024) (k' : Fin 64) :
    (reduces_S4x1024x64_S4x1024 : S4x1024x64.Reduces [2] S4x1024).lift (ix2 g n) k' = ix3 g n k' :=
  funext fun ax => Fin.ext (by
    match ax with
    | ⟨0, _⟩ => rfl
    | ⟨1, _⟩ => rfl
    | ⟨2, _⟩ => rfl)

/-! ## The block's stages -/

/-- The score of node `n` of the block's graph `g` for cluster `k`, on the extended reals. -/
def blockScore (a0 : S4x1024x64.Idx → EReal) (x1 : S4x1024x128.Idx → EReal) (w : S128x64.Idx → EReal) (b3 : S1x1x64.Idx → EReal)
    (g : Fin 4) (n : Fin 1024) (k : Fin 64) : EReal :=
  Ideal.tanh ((a0 (ix3 g n k) + ∑ j : Fin 128, x1 (ix3 g n j) * w (ix2 j k)) + b3 (ix3 0 0 k))

/-- The flattened features times the root weights, into zero. -/
def xw (v0 : Vec Ideal S4x1024x128 .f32) (v4 : Vec Ideal S128x64 .f32) : FVec Ideal S4096x64 .f32 :=
  matmul dot_S4096x128_S128x64_S4096x64_1_0_0_1_n_n none
    (truncf .bf16 (shapeCast S4096x128 (shapeCast S4x1024x128 v0 shapeCasts_S4x1024x128_S4x1024x128) shapeCasts_S4x1024x128_S4096x128) bitsLt_bf16_f32)
    (truncf .bf16 v4 bitsLt_bf16_f32) (constant S4096x64 .f32 0x00000000#32)

/-- The scores as the body computes them. -/
def scoreV (v0 : Vec Ideal S4x1024x128 .f32) (v4 : Vec Ideal S128x64 .f32) (v8 : Vec Ideal S4x1024x64 .f32) (v11 : Vec Ideal S1x1x64 .f32) :
    FVec Ideal S4x1024x64 .f32 :=
  tanh (addf (addf (shapeCast S4x1024x64 v8 shapeCasts_S4x1024x64_S4x1024x64) (shapeCast S4x1024x64 (xw v0 v4) shapeCasts_S4096x64_S4x1024x64))
    (broadcastTo S4x1024x64 (shapeCast S1x1x64 v11 shapeCasts_S1x1x64_S1x1x64) broadcasts_S1x1x64_S4x1024x64))

/-- A per-node value laid along the cluster axis. -/
def alongK (v : FVec Ideal S4x1024 .f32) : FVec Ideal S4x1024x64 .f32 :=
  broadcastTo S4x1024x64 (shapeCast S4x1024x1 v shapeCasts_S4x1024_S4x1024x1) broadcasts_S4x1024x1_S4x1024x64

def rowMaxV (s : FVec Ideal S4x1024x64 .f32) : FVec Ideal S4x1024 .f32 :=
  multiReduction .maximumf [2] S4x1024 s 0xFF800000#32 reduces_S4x1024x64_S4x1024 (.inl rfl) rfl

def expV (s : FVec Ideal S4x1024x64 .f32) : FVec Ideal S4x1024x64 .f32 := exp (subf s (alongK (rowMaxV s)))

def rowSumV (e : FVec Ideal S4x1024x64 .f32) : FVec Ideal S4x1024 .f32 :=
  multiReduction .add [2] S4x1024 e 0x00000000#32 reduces_S4x1024x64_S4x1024 (.inl rfl) rfl

/-- The row softmax as the body computes it. -/
def smxV (s : FVec Ideal S4x1024x64 .f32) : FVec Ideal S4x1024x64 .f32 := divf (expV s) (alongK (rowSumV (expV s)))

/-- The payload is the batched product of the softmax of the scores with the features. -/
theorem pay_eq (v0 : Vec Ideal S4x1024x128 .f32) (v4 : Vec Ideal S128x64 .f32) (v8 : Vec Ideal S4x1024x64 .f32) (v11 : Vec Ideal S1x1x64 .f32) :
    Gen.k1_pay1 (F := Ideal) v0 v4 v8 v11
      = matmul dot_S4x1024x64_S4x1024x128_S4x64x128_1_1_2_2_0_0 none (truncf .bf16 (smxV (scoreV v0 v4 v8 v11)) bitsLt_bf16_f32)
          (truncf .bf16 (shapeCast S4x1024x128 v0 shapeCasts_S4x1024x128_S4x1024x128) bitsLt_bf16_f32) (constant S4x64x128 .f32 0x00000000#32) := rfl

/-! ## The stages at an index -/

theorem xw_apply (v0 : Vec Ideal S4x1024x128 .f32) (v4 : Vec Ideal S128x64 .f32) (g : Fin 4) (n : Fin 1024) (k : Fin 64) :
    xw v0 v4 (ix2 (row g n) k) = ∑ j : Fin 128, v0 (ix3 g n j) * v4 (ix2 j k) := by
  have h := Cert.LibMatProd.matmul_zero_apply (A := 4096) (K := 128) (B := 64) (φ₁ := .bf16) (φ₂ := .bf16)
    dot_S4096x128_S128x64_S4096x64_1_0_0_1_n_n rfl none
    (truncf .bf16 (shapeCast S4096x128 (shapeCast S4x1024x128 v0 shapeCasts_S4x1024x128_S4x1024x128) shapeCasts_S4x1024x128_S4096x128) bitsLt_bf16_f32)
    (truncf .bf16 v4 bitsLt_bf16_f32) (row g n) k
  refine h.trans (Finset.sum_congr rfl fun j _ => ?_)
  have hx : shapeCast S4096x128 (shapeCast S4x1024x128 v0 shapeCasts_S4x1024x128_S4x1024x128) shapeCasts_S4x1024x128_S4096x128 (ix2 (row g n) j)
      = v0 (ix3 g n j) :=
    (flat_apply _ shapeCasts_S4x1024x128_S4096x128 g n j).trans (congrFun (shapeCast_self v0 shapeCasts_S4x1024x128_S4x1024x128) (ix3 g n j))
  show shapeCast S4096x128 (shapeCast S4x1024x128 v0 shapeCasts_S4x1024x128_S4x1024x128) shapeCasts_S4x1024x128_S4096x128 (ix2 (row g n) j) * v4 (ix2 j k) = _
  rw [hx]

theorem scoreV_apply (v0 : Vec Ideal S4x1024x128 .f32) (v4 : Vec Ideal S128x64 .f32) (v8 : Vec Ideal S4x1024x64 .f32) (v11 : Vec Ideal S1x1x64 .f32)
    (g : Fin 4) (n : Fin 1024) (k : Fin 64) :
    scoreV v0 v4 v8 v11 (ix3 g n k) = blockScore v8 v0 v4 v11 g n k := by
  have e1 : shapeCast S4x1024x64 v8 shapeCasts_S4x1024x64_S4x1024x64 (ix3 g n k) = v8 (ix3 g n k) := congrFun (shapeCast_self v8 _) _
  have e2 : shapeCast S4x1024x64 (xw v0 v4) shapeCasts_S4096x64_S4x1024x64 (ix3 g n k) = ∑ j : Fin 128, v0 (ix3 g n j) * v4 (ix2 j k) :=
    (unflat_apply _ _ g n k).trans (xw_apply v0 v4 g n k)
  have e3 : broadcastTo S4x1024x64 (shapeCast S1x1x64 v11 shapeCasts_S1x1x64_S1x1x64) broadcasts_S1x1x64_S4x1024x64 (ix3 g n k) = v11 (ix3 0 0 k) :=
    (bias_apply _ _ g n k).trans (congrFun (shapeCast_self v11 _) _)
  show Ideal.tanh ((shapeCast S4x1024x64 v8 shapeCasts_S4x1024x64_S4x1024x64 (ix3 g n k)
      + shapeCast S4x1024x64 (xw v0 v4) shapeCasts_S4096x64_S4x1024x64 (ix3 g n k))
      + broadcastTo S4x1024x64 (shapeCast S1x1x64 v11 shapeCasts_S1x1x64_S1x1x64) broadcasts_S1x1x64_S4x1024x64 (ix3 g n k)) = _
  rw [e1, e2, e3]; rfl

theorem alongK_apply (v : FVec Ideal S4x1024 .f32) (g : Fin 4) (n : Fin 1024) (k : Fin 64) : alongK v (ix3 g n k) = v (ix2 g n) :=
  (colBcast_apply _ _ g n k).trans (col_apply v _ g n 0)

theorem rowMaxV_apply (s : FVec Ideal S4x1024x64 .f32) (g : Fin 4) (n : Fin 1024) :
    rowMaxV s (ix2 g n) = (Finset.univ : Finset (Fin 64)).fold max ⊥ (fun k' => s (ix3 g n k')) := by
  refine (Ideal.multiReduction_maximumf_single s 0xFF800000#32 reduces_S4x1024x64_S4x1024 (.inl rfl) rfl (ix2 g n)).trans ?_
  have hb : (FloatOps.ofBits .f32 0xFF800000#32 : Ideal .f32) = ⊥ := by
    show Ideal.ofBits .f32 0xFF800000#32 = ⊥
    simp [Ideal.ofBits, Ideal.ieee]
  rw [hb]
  exact congrArg (fun f => (Finset.univ : Finset (Fin 64)).fold max ⊥ f) (funext fun k' => congrArg s (lift_eq g n k'))

theorem rowSumV_apply (e : FVec Ideal S4x1024x64 .f32) (g : Fin 4) (n : Fin 1024) :
    rowSumV e (ix2 g n) = ∑ k' : Fin 64, e (ix3 g n k') := by
  refine (Ideal.multiReduction_add_single e 0x00000000#32 reduces_S4x1024x64_S4x1024 (.inl rfl) rfl (ix2 g n)).trans ?_
  exact Finset.sum_congr rfl fun k' _ => congrArg e (lift_eq g n k')

theorem expV_apply (s : FVec Ideal S4x1024x64 .f32) (g : Fin 4) (n : Fin 1024) (k : Fin 64) :
    expV s (ix3 g n k) = Ideal.exp (s (ix3 g n k) - (Finset.univ : Finset (Fin 64)).fold max ⊥ (fun k' => s (ix3 g n k'))) := by
  show Ideal.exp (s (ix3 g n k) - alongK (rowMaxV s) (ix3 g n k)) = _
  rw [alongK_apply, rowMaxV_apply]

theorem smxV_apply (s : FVec Ideal S4x1024x64 .f32) (g : Fin 4) (n : Fin 1024) (k : Fin 64) :
    smxV s (ix3 g n k) = Cert.Spec.rowSoftmax (fun k' => s (ix3 g n k')) k := by
  show Ideal.div (expV s (ix3 g n k)) (alongK (rowSumV (expV s)) (ix3 g n k)) = _
  rw [alongK_apply, rowSumV_apply, expV_apply]
  unfold Cert.Spec.rowSoftmax
  refine congrArg _ (Finset.sum_congr rfl fun k' _ => ?_)
  exact expV_apply s g n k'

/-- The payload at entry (g, k, cc): the pooled features of the block's graph `g`. -/
theorem pay_apply (v0 : Vec Ideal S4x1024x128 .f32) (v4 : Vec Ideal S128x64 .f32) (v8 : Vec Ideal S4x1024x64 .f32) (v11 : Vec Ideal S1x1x64 .f32)
    (g : Fin 4) (k : Fin 64) (cc : Fin 128) :
    Gen.k1_pay1 (F := Ideal) v0 v4 v8 v11 (ix3 g k cc)
      = ∑ n : Fin 1024, Cert.Spec.rowSoftmax (blockScore v8 v0 v4 v11 g n) k * v0 (ix3 g n cc) := by
  rw [pay_eq]
  refine (batched_apply none _ _ g k cc).trans ?_
  refine Finset.sum_congr rfl fun n _ => ?_
  have hs : smxV (scoreV v0 v4 v8 v11) (ix3 g n k) = Cert.Spec.rowSoftmax (blockScore v8 v0 v4 v11 g n) k := by
    rw [smxV_apply]
    exact congrArg (fun r => Cert.Spec.rowSoftmax r k) (funext fun k' => scoreV_apply v0 v4 v8 v11 g n k')
  have hx : shapeCast S4x1024x128 v0 shapeCasts_S4x1024x128_S4x1024x128 (ix3 g n cc) = v0 (ix3 g n cc) := congrFun (shapeCast_self v0 _) _
  show smxV (scoreV v0 v4 v8 v11) (ix3 g n k) * shapeCast S4x1024x128 v0 shapeCasts_S4x1024x128_S4x1024x128 (ix3 g n cc) = _
  rw [hs, hx]

end Cert.KernelIdeal.Region1

end
-- ==== Proof.Region1b.lean ====
/-
  From the blocks to the array: the pooled features after the second region.

  The grid has 16 points; point t holds graphs 4 t .. 4 t + 3. Its blocks of the aggregated messages [64, 1024, 64] and of
  the node features [64, 1024, 128] are those graphs' slices (block coordinate (g, n, k) is array coordinate
  (4 t + g, n, k)), the root weights and the bias are whole at every point, and its output block is graphs 4 t .. 4 t + 3 of
  the result [64, 64, 128]. So the payload at (g, k, c), which is sum_n softmax(score[g,n,:])[k] * x[g,n,c] over the block,
  is the pooled feature (4 t + g, k, c) of the whole arrays, and graph b of the result is written by point b / 4: the
  result array ends holding out[b,k,c] = sum_n softmax(score[b,n,:])[k] * x3[b,n,c].
-/
import proofs.«421208_j1632087572809_3_alg».proof.Proof.Gen.KernelIdeal.Frame
import proofs.«421208_j1632087572809_3_alg».proof.Proof.Spec
import proofs.«421208_j1632087572809_3_alg».proof.Proof.Region1a
import Idealize.ShloMosaic.Lib.Pipeline.Value
import Idealize.ShloMosaic.Lib.ValueIdx

noncomputable section

namespace Cert.KernelIdeal.Region1

open Idealize.ShloMosaic Idealize.ShloMosaic.ValueIdx Cert.KernelIdeal Cert.KernelIdeal.Facts₀

/-! ## From blocks to the array -/

section Blocks

open Cert.KernelIdeal.Gen Idealize.ShloMosaic.TcCoe
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the messages', the features' and the output's blocks move with the
    point along the graph axis, the weights and the bias are whole. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 3) = 0 ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

/-- Graph `g` of point `t`'s block is graph `4 t + g` of the array. -/
def graphOf (t : Fin cfg1.N) (g : Fin 4) : Fin 64 := ⟨4 * t.val + g.val, by have := t.isLt; have : cfg1.N = 16 := N_1; omega⟩

/-- The arrays as the region finds them, at their literal shapes. -/
abbrev aArr (c : Dev nD) : S64x1024x64.Idx → EReal := V c main_v16
abbrev xArr (c : Dev nD) : S64x1024x128.Idx → EReal := V c main_v17
abbrev wArr (c : Dev nD) : S128x64.Idx → EReal := V c main_arg4
abbrev bArr (c : Dev nD) : S1x1x64.Idx → EReal := V c main_v18

/-- The input blocks at a point, at their literal shapes. -/
abbrev ablk (c : Dev nD) (t : Fin cfg1.N) : Vec Ideal S4x1024x64 .f32 := iblk1 V c 0 t
abbrev xblk (c : Dev nD) (t : Fin cfg1.N) : Vec Ideal S4x1024x128 .f32 := iblk1 V c 1 t
abbrev wblk (c : Dev nD) (t : Fin cfg1.N) : Vec Ideal S128x64 .f32 := iblk1 V c 2 t
abbrev bblk (c : Dev nD) (t : Fin cfg1.N) : Vec Ideal S1x1x64 .f32 := iblk1 V c 3 t

theorem ablk_apply (c : Dev nD) (t : Fin cfg1.N) (g : Fin 4) (n : Fin 1024) (k : Fin 64) :
    ablk V c t (ix3 g n k) = aArr V c (ix3 (graphOf t g) n k) := by
  obtain ⟨e0, e1, e2, -⟩ := idx_facts t
  show V c main_v16 (((cfg1.win 0).blk t).view.emb (ix3 g n k)) = V c main_v16 (ix3 (graphOf t g) n k)
  refine congrArg _ (funext fun a => Fin.ext ?_)
  match a with
  | ⟨0, _⟩ => show win1_0.index t (0 : Fin 3) * 4 + 1 * g.val = 4 * t.val + g.val; omega
  | ⟨1, _⟩ => show win1_0.index t (1 : Fin 3) * 1024 + 1 * n.val = n.val; omega
  | ⟨2, _⟩ => show win1_0.index t (2 : Fin 3) * 64 + 1 * k.val = k.val; omega

theorem xblk_apply (c : Dev nD) (t : Fin cfg1.N) (g : Fin 4) (n : Fin 1024) (j : Fin 128) :
    xblk V c t (ix3 g n j) = xArr V c (ix3 (graphOf t g) n j) := by
  obtain ⟨-, -, -, e0, e1, e2, -⟩ := idx_facts t
  show V c main_v17 (((cfg1.win 1).blk t).view.emb (ix3 g n j)) = V c main_v17 (ix3 (graphOf t g) n j)
  refine congrArg _ (funext fun a => Fin.ext ?_)
  match a with
  | ⟨0, _⟩ => show win1_1.index t (0 : Fin 3) * 4 + 1 * g.val = 4 * t.val + g.val; omega
  | ⟨1, _⟩ => show win1_1.index t (1 : Fin 3) * 1024 + 1 * n.val = n.val; omega
  | ⟨2, _⟩ => show win1_1.index t (2 : Fin 3) * 128 + 1 * j.val = j.val; omega

theorem wblk_apply (c : Dev nD) (t : Fin cfg1.N) (j : Fin 128) (k : Fin 64) :
    wblk V c t (ix2 j k) = wArr V c (ix2 j k) := by
  obtain ⟨-, -, -, -, -, -, e0, e1, -⟩ := idx_facts t
  show V c main_arg4 (((cfg1.win 2).blk t).view.emb (ix2 j k)) = V c main_arg4 (ix2 j k)
  refine congrArg _ (funext fun a => Fin.ext ?_)
  match a with
  | ⟨0, _⟩ => show win1_2.index t (0 : Fin 2) * 128 + 1 * j.val = j.val; omega
  | ⟨1, _⟩ => show win1_2.index t (1 : Fin 2) * 64 + 1 * k.val = k.val; omega

theorem bblk_apply (c : Dev nD) (t : Fin cfg1.N) (k : Fin 64) :
    bblk V c t (ix3 0 0 k) = bArr V c (ix3 0 0 k) := by
  obtain ⟨-, -, -, -, -, -, -, -, e0, e1, e2, -⟩ := idx_facts t
  show V c main_v18 (((cfg1.win 3).blk t).view.emb (ix3 0 0 k)) = V c main_v18 (ix3 0 0 k)
  refine congrArg _ (funext fun a => Fin.ext ?_)
  match a with
  | ⟨0, _⟩ => show win1_3.index t (0 : Fin 3) * 1 + 1 * 0 = 0; omega
  | ⟨1, _⟩ => show win1_3.index t (1 : Fin 3) * 1 + 1 * 0 = 0; omega
  | ⟨2, _⟩ => show win1_3.index t (2 : Fin 3) * 64 + 1 * k.val = k.val; omega

/-- The block's scores are the array's scores of graph `4 t + g`. -/
theorem blockScore_eq (c : Dev nD) (t : Fin cfg1.N) (g : Fin 4) (n : Fin 1024) :
    blockScore (ablk V c t) (xblk V c t) (wblk V c t) (bblk V c t) g n
      = Cert.Spec.score3 (aArr V c) (xArr V c) (wArr V c) (bArr V c) (graphOf t g) n := by
  funext k
  unfold blockScore Cert.Spec.score3
  rw [ablk_apply, bblk_apply]
  refine congrArg (fun s => Ideal.tanh ((aArr V c (ix3 (graphOf t g) n k) + s) + bArr V c (ix3 0 0 k))) ?_
  refine Finset.sum_congr rfl fun j _ => ?_
  rw [xblk_apply, wblk_apply]

/-- What point `t` writes back is block `t` of the pooled features of the arrays as the region finds them. -/
theorem flushed_eq (c : Dev nD) (t : Fin cfg1.N) :
    (dat1 (F := Ideal) V c).flushed 4 t
      = ((cfg1.win 4).blk t).view.read (Elt Ideal) (Cert.Spec.pool3 (aArr V c) (xArr V c) (wArr V c) (bArr V c)) := by
  show (cfg1.win 4).cut (grid1.coords t) ((dat1 V c).after 4 t) = _
  rw [after1_4]
  unfold out1_4
  rw [View.canon_unit_zero hz3]
  simp only [View.ld_unit_zero (S := S4x1024x128) hz3, View.ld_unit_zero (S := S128x64) hz2,
    View.ld_unit_zero (S := S4x1024x64) hz3, View.ld_unit_zero (S := S1x1x64) hz3]
  refine funext fun (j : S4x64x128.Idx) => ?_
  obtain ⟨g, k, cc, rfl⟩ : ∃ (g : Fin 4) (k : Fin 64) (cc : Fin 128), j = ix3 g k cc := ⟨j 0, j 1, j 2, eq_ix3 j⟩
  show k1_pay1 (F := Ideal) (xblk V c t) (wblk V c t) (ablk V c t) (bblk V c t) (ix3 g k cc)
    = Cert.Spec.pool3 (aArr V c) (xArr V c) (wArr V c) (bArr V c) (((cfg1.win 4).blk t).view.emb (ix3 g k cc))
  have hemb : ((cfg1.win 4).blk t).view.emb (ix3 g k cc) = (ix3 (graphOf t g) k cc : S64x64x128.Idx) := by
    obtain ⟨-, -, -, -, -, -, -, -, -, -, -, e0, e1, e2⟩ := idx_facts t
    refine funext fun a => Fin.ext ?_
    match a with
    | ⟨0, _⟩ => show win1_4.index t (0 : Fin 3) * 4 + 1 * g.val = 4 * t.val + g.val; omega
    | ⟨1, _⟩ => show win1_4.index t (1 : Fin 3) * 64 + 1 * k.val = k.val; omega
    | ⟨2, _⟩ => show win1_4.index t (2 : Fin 3) * 128 + 1 * cc.val = cc.val; omega
  rw [hemb]
  refine (pay_apply (xblk V c t) (wblk V c t) (ablk V c t) (bblk V c t) g k cc).trans ?_
  show _ = ∑ n : Fin 1024, Cert.Spec.rowSoftmax (Cert.Spec.score3 (aArr V c) (xArr V c) (wArr V c) (bArr V c) (graphOf t g) n) k
      * xArr V c (ix3 (graphOf t g) n cc)
  refine Finset.sum_congr rfl fun n _ => ?_
  rw [blockScore_eq, xblk_apply]

/-- An index of the output array is in point `t`'s block iff each coordinate is in the block's range on its axis. -/
theorem mem_blk (t : Fin cfg1.N) (i : S64x64x128.Idx) :
    i ∈ ((cfg1.win 4).blk t).view.set
      ↔ ∀ a : Fin 3, win1_4.index t a * S4x64x128.size a ≤ (i a).val ∧ (i a).val < win1_4.index t a * S4x64x128.size a + S4x64x128.size a := by
  show i ∈ ((View.whole main_v19).slice (win1_4.rect t)).set ↔ _
  rw [View.set_slice_whole, Rect.mem_set_unit]
  exact Iff.rfl

/-- Graph `b` of the output is covered by point `b / 4`. -/
theorem cover (i : S64x64x128.Idx) : ∃ t : Fin cfg1.N, (cfg1.win 4).flush t = true ∧ i ∈ ((cfg1.win 4).blk t).view.set := by
  have hN : cfg1.N = 16 := N_1
  have h0 : (i 0).val < 64 := (i 0).isLt
  have h1 : (i 1).val < 64 := (i 1).isLt
  have h2 : (i 2).val < 128 := (i 2).isLt
  obtain ⟨t, ht⟩ : ∃ t : Fin cfg1.N, t.val = (i 0).val / 4 := ⟨⟨(i 0).val / 4, by omega⟩, rfl⟩
  refine ⟨t, flush1_4 t, ?_⟩
  rw [mem_blk]
  obtain ⟨-, -, -, -, -, -, -, -, -, -, -, e0, e1, e2⟩ := idx_facts t
  intro a
  match a with
  | ⟨0, _⟩ => show win1_4.index t (0 : Fin 3) * 4 ≤ (i 0).val ∧ (i 0).val < win1_4.index t (0 : Fin 3) * 4 + 4; omega
  | ⟨1, _⟩ => show win1_4.index t (1 : Fin 3) * 64 ≤ (i 1).val ∧ (i 1).val < win1_4.index t (1 : Fin 3) * 64 + 64; omega
  | ⟨2, _⟩ => show win1_4.index t (2 : Fin 3) * 128 ≤ (i 2).val ∧ (i 2).val < win1_4.index t (2 : Fin 3) * 128 + 128; omega

/-- The output array after the region: the pooled features of the arrays as the region finds them. -/
theorem arr_eq (c : Dev nD) :
    (dat1 (F := Ideal) V c).arrAt 4 cfg1.N = Cert.Spec.pool3 (V c main_v16) (V c main_v17) (V c main_arg4) (V c main_v18) :=
  (dat1 (F := Ideal) V c).arrAt_eq_of_cover 4 (Cert.Spec.pool3 (aArr V c) (xArr V c) (wArr V c) (bArr V c))
    (fun t _ => flushed_eq V c t) cover

end Blocks

end Cert.KernelIdeal.Region1

end
-- ==== Proof.KernelOut.lean ====
/-
  The kernel program's first result is the common closed form: region 0 leaves msg of x and W_msg in the message
  array, the stretch between the regions aggregates it and lays agg, x and the bias out per graph, region 1 leaves
  pool3 of those in the pooled array, and the last stretch flattens it.
-/
import proofs.«421208_j1632087572809_3_alg».proof.Proof.OutSpec
import proofs.«421208_j1632087572809_3_alg».proof.Proof.Region0
import proofs.«421208_j1632087572809_3_alg».proof.Proof.Region1b

set_option maxRecDepth 16384

noncomputable section

namespace Cert.KernelOut

open Idealize.ShloMosaic Idealize.ShloMosaic.TcCoe Idealize.SL.Sem Cert.KernelIdeal Cert.KernelIdeal.Facts₀

variable (m : (ℓ : Loc nD τ sig) → Buf (Elt Ideal) ℓ) (ρ : Dev nD → PrngReg)

/-- The message array after region 0. -/
theorem msg_arr (c : Dev nD) :
    Gen.V1 m ρ c main_v0 = Cert.Spec.msg (m ((c : Thread nD τ).loc main_arg0)) (m ((c : Thread nD τ).loc main_arg3)) :=
  (Cert.KernelIdeal.Reads.V1_v0 m ρ c).trans (Cert.KernelIdeal.Region0.arr_eq (Gen.V0 m ρ) c)

/-- Region 1's four input arrays as it finds them. -/
theorem in16 (c : Dev nD) : Gen.V2 m ρ c main_v16
    = shapeCast S64x1024x64 (Cert.KernelIdeal.Reads.aggK (F := Ideal)
        (Cert.Spec.msg (m ((c : Thread nD τ).loc main_arg0)) (m ((c : Thread nD τ).loc main_arg3))) (m ((c : Thread nD τ).loc main_arg1)))
        shapeCasts_S65536x64_S64x1024x64 := by
  rw [Cert.KernelIdeal.Reads.V2_v16, msg_arr, Cert.KernelIdeal.Reads.V1_arg1]
theorem in17 (c : Dev nD) : Gen.V2 m ρ c main_v17 = shapeCast S64x1024x128 (m ((c : Thread nD τ).loc main_arg0)) shapeCasts_S65536x128_S64x1024x128 := by
  rw [Cert.KernelIdeal.Reads.V2_v17, Cert.KernelIdeal.Reads.V1_arg0]
theorem in18 (c : Dev nD) : Gen.V2 m ρ c main_v18 = shapeCast S1x1x64 (m ((c : Thread nD τ).loc main_arg5)) shapeCasts_S64_S1x1x64 := by
  rw [Cert.KernelIdeal.Reads.V2_v18, Cert.KernelIdeal.Reads.V1_arg5]
theorem in4 (c : Dev nD) : Gen.V2 m ρ c main_arg4 = m ((c : Thread nD τ).loc main_arg4) := by
  rw [Cert.KernelIdeal.Reads.V2_arg4, Cert.KernelIdeal.Reads.V1_arg4]

/-- The first result buffer at the end of @main. -/
theorem kernel_out (c : Dev nD) :
    Gen.W4 m ρ c (Proc.devRef .tc main_v20)
      = Cert.OutSpec.outS (m ((c : Thread nD τ).loc main_arg0)) (m ((c : Thread nD τ).loc main_arg1)) (m ((c : Thread nD τ).loc main_arg3))
          (m ((c : Thread nD τ).loc main_arg4)) (m ((c : Thread nD τ).loc main_arg5)) := by
  rw [Cert.KernelIdeal.Reads.W4_v20, Cert.KernelIdeal.Reads.V3_v19, Cert.KernelIdeal.Region1.arr_eq, in16, in17, in18, in4]
  rfl

end Cert.KernelOut

end
-- ==== Proof.RefPool.lean ====
/-
  The reference's softmax-and-pool stage, read at an index.

  The nodes are laid out as 64 graphs of 1024 nodes: node n of graph b is row b * 1024 + n of the flat
  arrays, so a reshape [65536, C] -> [64, 1024, C] read at (b, n, c) is the flat array at that row and
  column c, and the bias reshaped to [1, 1, 64] read at (0, 0, k) is entry k. With these readings
  * the reshaped flat scores tanh ((agg + x W_root) + bias) are, at (b, n, k), the score of node n of
    graph b for cluster k over the reshaped inputs;
  * the row softmax of any [64, 1024, 64] array s is, at (b, n, k), the softmax of the row
    k' |-> s (b, n, k') at entry k: the row maximum is the fold of max from the bottom element (the further
    maximum against the bottom element changes nothing), the row sum starts from zero;
  * the pooling product, batched over the graphs and contracted over the nodes, is at (b, k, c) the sum
    over n : Fin 1024 of the left operand at (b, n, k) times the right operand at (b, n, c).
  Together: the reference's pooled features are pool3 of the reshaped inputs.
-/
import proofs.«421208_j1632087572809_3_alg».proof.Proof.Spec
import proofs.«421208_j1632087572809_3_alg».proof.Proof.RefTerms
import proofs.«421208_j1632087572809_3_alg».proof.Proof.LibMatProd
import Idealize.ShloMosaic.Lib.Pipeline.Value
import Idealize.ShloMosaic.Lib.IdealHost
import Idealize.ShloMosaic.Lib.ValueIdx
import Idealize.ShloMosaic.PureOps.Ideal.Laws
import Idealize.ShloMosaic.PureOps.Reduce

noncomputable section

namespace Cert.RefPool

open Idealize.ShloMosaic Idealize.ShloMosaic.ValueIdx Cert.ReferenceIdeal Cert.ReferenceIdeal.Facts₀

/-! ## Reshapes and broadcasts read at an index -/

/-- Node `n` of graph `bb` is row `bb * 1024 + n` of the flat arrays. -/
def row (bb : Fin 64) (n : Fin 1024) : Fin 65536 := ⟨bb.val * 1024 + n.val, by omega⟩

/-- A flat `[65536, C]` array reshaped to `[64, 1024, C]` reads, at `(bb, n, c)`, row `bb * 1024 + n`, column `c`:
    the two indices have the same row-major position. -/
theorem reshape3_apply {C : ℕ} {α : Type} (v : (⟨2, ![65536, C]⟩ : Shape).Idx → α)
    (h : (⟨2, ![65536, C]⟩ : Shape).ShapeCasts ⟨3, ![64, 1024, C]⟩) (bb : Fin 64) (n : Fin 1024) (c : Fin C) :
    shapeCast ⟨3, ![64, 1024, C]⟩ v h (ix3 bb n c) = v (ix2 (row bb n) c) := by
  refine shapeCast_apply v h (ix3 bb n c) (ix2 (row bb n) c) ?_
  rw [Shape.rowMajor_val_two, Shape.rowMajor_val_three]
  rfl

/-- The bias reshaped to `[1, 1, 64]` reads, at `(0, 0, k)`, entry `k`. -/
theorem reshapeBias_apply {α : Type} (v : (⟨1, ![64]⟩ : Shape).Idx → α)
    (h : (⟨1, ![64]⟩ : Shape).ShapeCasts ⟨3, ![1, 1, 64]⟩) (k : Fin 64) :
    shapeCast ⟨3, ![1, 1, 64]⟩ v h (ix3 0 0 k) = v (ix1 k) := by
  refine shapeCast_apply v h (ix3 0 0 k) (ix1 k) ?_
  rw [Shape.rowMajor_val_one, Shape.rowMajor_val_three]
  show k.val = ((0 : ℕ) * 1 + 0) * 64 + k.val
  omega

section
variable [Cert.ReferenceIdeal.Facts]

/-- The bias broadcast to one row and then down the 65536 rows reads, at `(r, k)`, entry `k`. -/
theorem biasRows_apply (b : FVec Ideal S64 .f32) (r : Fin 65536) (k : Fin 64) :
    broadcastInDim S65536x64 ![0, 1] bcast_S1x64_S65536x64_0_1 (broadcastInDim S1x64 ![1] bcast_S64_S1x64_1 b) (ix2 r k)
      = b (ix1 k) := by
  refine (broadcastInDim_apply _ _ _ (ix2 r k) (ix2 (0 : Fin 1) k) fun a => ?_).trans ?_
  · match a with
    | ⟨0, _⟩ => rfl
    | ⟨1, _⟩ => rfl
  · refine broadcastInDim_apply _ _ _ (ix2 (0 : Fin 1) k) (ix1 k) fun a => ?_
    match a with
    | ⟨0, _⟩ => rfl

/-- The flat scores at row `r`, cluster `k`. -/
theorem scoreT_apply (agg : FVec Ideal S65536x64 .f32) (x : FVec Ideal S65536x128 .f32) (Wr : FVec Ideal S128x64 .f32)
    (b : FVec Ideal S64 .f32) (r : Fin 65536) (k : Fin 64) :
    Cert.RefTerms.scoreT agg x Wr b (ix2 r k)
      = Ideal.tanh ((agg (ix2 r k) + ∑ j : Fin 128, x (ix2 r j) * Wr (ix2 j k)) + b (ix1 k)) := by
  unfold Cert.RefTerms.scoreT
  show Ideal.tanh ((agg (ix2 r k) + Host.dotGeneral dot_S65536x128_S128x64_S65536x64_1_0_0_1_n_n none x Wr (ix2 r k))
      + broadcastInDim S65536x64 ![0, 1] bcast_S1x64_S65536x64_0_1 (broadcastInDim S1x64 ![1] bcast_S64_S1x64_1 b) (ix2 r k)) = _
  rw [biasRows_apply, Cert.LibMatProd.dotGeneral_apply dot_S65536x128_S128x64_S65536x64_1_0_0_1_n_n rfl]

/-- The reshaped flat scores at `(bb, n, k)` are the score of node `n` of graph `bb` for cluster `k` over the
    reshaped inputs: both sides read row `bb * 1024 + n`. -/
theorem s3T_scoreT_apply (agg : FVec Ideal S65536x64 .f32) (x : FVec Ideal S65536x128 .f32) (Wr : FVec Ideal S128x64 .f32)
    (b : FVec Ideal S64 .f32) (h1 : S65536x64.ShapeCasts Cert.Spec.SA3) (h2 : S65536x128.ShapeCasts Cert.Spec.SX3)
    (h3 : S64.ShapeCasts Cert.Spec.SB3) (bb : Fin 64) (n : Fin 1024) (k : Fin 64) :
    Cert.RefTerms.s3T (F := Ideal) (Cert.RefTerms.scoreT agg x Wr b) (ix3 bb n k)
      = Cert.Spec.score3 (shapeCast Cert.Spec.SA3 agg h1) (shapeCast Cert.Spec.SX3 x h2) Wr (shapeCast Cert.Spec.SB3 b h3) bb n k := by
  unfold Cert.RefTerms.s3T Cert.Spec.score3
  rw [reshape3_apply, scoreT_apply, reshape3_apply, reshapeBias_apply]
  refine congrArg (fun t => Ideal.tanh ((agg (ix2 (row bb n) k) + t) + b (ix1 k))) ?_
  exact Finset.sum_congr rfl fun j _ => by rw [reshape3_apply]

/-- The reshaped features at `(bb, n, c)`. -/
theorem x3T_apply (x : FVec Ideal S65536x128 .f32) (h2 : S65536x128.ShapeCasts Cert.Spec.SX3) (bb : Fin 64) (n : Fin 1024) (c : Fin 128) :
    Cert.RefTerms.x3T (F := Ideal) x (ix3 bb n c) = shapeCast Cert.Spec.SX3 x h2 (ix3 bb n c) := by
  rfl

end

/-! ## The row softmax read at an index -/

section
variable [Cert.ReferenceIdeal.Facts]

/-- The f32 pattern of minus infinity is the bottom element of the extended reals. -/
theorem ofBits_neg_inf_f32 : Ideal.ofBits .f32 0xFF800000#32 = (⊥ : EReal) := by simp [Ideal.ofBits, Ideal.ieee]

/-- Dropping the last axis of `[64, 1024, 64]` leaves `[64, 1024]`. -/
theorem reduces_d2 : Shape.Reduces S64x1024x64 [2] S64x1024 := by decide

/-- The index over `(bb, n)` with `k'` inserted on the last axis is `(bb, n, k')`. -/
theorem lift_d2 (h : Shape.Reduces S64x1024x64 [2] S64x1024) (bb : Fin 64) (n : Fin 1024) (k' : Fin 64) :
    h.lift (ix2 bb n) k' = ix3 bb n k' := by
  funext a
  match a with
  | ⟨0, _⟩ => rfl
  | ⟨1, _⟩ => rfl
  | ⟨2, _⟩ => rfl

/-- The row maximum at `(bb, n)`: the fold of `max` from the bottom element over the row; the further maximum against
    the bottom element changes nothing. -/
theorem rowMaxT_apply (s : FVec Ideal S64x1024x64 .f32) (bb : Fin 64) (n : Fin 1024) :
    Cert.RefTerms.rowMaxT s (ix2 bb n) = (Finset.univ : Finset (Fin 64)).fold max ⊥ (fun k' => s (ix3 bb n k')) := by
  unfold Cert.RefTerms.rowMaxT
  rw [maximumf_apply, broadcastInDim_scalar_apply, constant_apply, ofBits_neg_inf_f32, max_bot_left,
    Host.reduce_eq_fold_single FloatOps.maximumf s _ reducesTo_S64x1024x64_S64x1024_d2 reduces_d2 h_S_ (ix2 bb n),
    constant_apply, ofBits_neg_inf_f32]
  exact congrArg (fun f : Fin 64 → EReal => (Finset.univ : Finset (Fin 64)).fold max ⊥ f)
    (funext fun k' => congrArg s (lift_d2 reduces_d2 bb n k'))

/-- A `[64, 1024]` array laid along the last axis reads, at `(bb, n, k)`, its entry `(bb, n)`. -/
theorem alongK_apply (v : FVec Ideal S64x1024 .f32) (bb : Fin 64) (n : Fin 1024) (k : Fin 64) :
    Cert.RefTerms.alongK v (ix3 bb n k) = v (ix2 bb n) := by
  unfold Cert.RefTerms.alongK
  refine (broadcastInDim_apply _ _ _ (ix3 bb n k) (ix3 bb n (0 : Fin 1)) fun a => ?_).trans ?_
  · match a with
    | ⟨0, _⟩ => rfl
    | ⟨1, _⟩ => rfl
    | ⟨2, _⟩ => rfl
  · refine broadcastInDim_apply _ _ _ (ix3 bb n (0 : Fin 1)) (ix2 bb n) fun a => ?_
    match a with
    | ⟨0, _⟩ => rfl
    | ⟨1, _⟩ => rfl

/-- The exponential of a score less its row maximum, at `(bb, n, k)`. -/
theorem expT_apply (s : FVec Ideal S64x1024x64 .f32) (bb : Fin 64) (n : Fin 1024) (k : Fin 64) :
    Cert.RefTerms.expT s (ix3 bb n k)
      = Ideal.exp (s (ix3 bb n k) - (Finset.univ : Finset (Fin 64)).fold max ⊥ (fun k' => s (ix3 bb n k'))) := by
  unfold Cert.RefTerms.expT
  show Ideal.exp (s (ix3 bb n k) - Cert.RefTerms.alongK (Cert.RefTerms.rowMaxT s) (ix3 bb n k)) = _
  rw [alongK_apply, rowMaxT_apply]

/-- The row softmax of any `[64, 1024, 64]` array at `(bb, n, k)` is the softmax of its row `(bb, n)` at entry `k`. -/
theorem smxT_apply (s : FVec Ideal S64x1024x64 .f32) (bb : Fin 64) (n : Fin 1024) (k : Fin 64) :
    Cert.RefTerms.smxT s (ix3 bb n k) = Cert.Spec.rowSoftmax (fun k' => s (ix3 bb n k')) k := by
  unfold Cert.RefTerms.smxT Cert.Spec.rowSoftmax
  rw [hostDivf_apply, alongK_apply, hostReduceAdd_apply,
    Ideal.hostReduceAdd_single reducesTo_S64x1024x64_S64x1024_d2 reduces_d2, constant_apply, Ideal.ofBits_zero_f32, zero_add,
    expT_apply]
  refine congrArg (Ideal.div _) ?_
  show (∑ k' : Fin 64, Cert.RefTerms.expT s (reduces_d2.lift (ix2 bb n) k')) = _
  exact Finset.sum_congr rfl fun k' _ => by rw [lift_d2, expT_apply]

end

/-! ## The pooling product read at an index -/

section
variable [Cert.ReferenceIdeal.Facts]

/-- The pooling product's left operand index at result index `(bb, k, c)` and node `n`: `(bb, n, k)`. -/
theorem pool_lhsIdx (bb : Fin 64) (k : Fin 64) (c : Fin 128) (n : Fin 1024) :
    dot_S64x1024x64_S64x1024x128_S64x64x128_1_1_2_2_0_0.lhsIdx (ix3 bb k c)
        ((contrEquiv1 dot_S64x1024x64_S64x1024x128_S64x64x128_1_1_2_2_0_0 1024 rfl rfl).symm n) = ix3 bb n k := by
  funext a
  refine Fin.ext ?_
  match a with
  | ⟨0, _⟩ => rfl
  | ⟨1, _⟩ =>
    exact (dot_S64x1024x64_S64x1024x128_S64x64x128_1_1_2_2_0_0.lhsIdx_val_of_single rfl _ _).trans
      (contrEquiv1_symm_val dot_S64x1024x64_S64x1024x128_S64x64x128_1_1_2_2_0_0 1024 rfl rfl n)
  | ⟨2, _⟩ => rfl

/-- Its right operand index: `(bb, n, c)`. -/
theorem pool_rhsIdx (bb : Fin 64) (k : Fin 64) (c : Fin 128) (n : Fin 1024) :
    dot_S64x1024x64_S64x1024x128_S64x64x128_1_1_2_2_0_0.rhsIdx (ix3 bb k c)
        ((contrEquiv1 dot_S64x1024x64_S64x1024x128_S64x64x128_1_1_2_2_0_0 1024 rfl rfl).symm n) = ix3 bb n c := by
  funext a
  refine Fin.ext ?_
  match a with
  | ⟨0, _⟩ => rfl
  | ⟨1, _⟩ =>
    exact (dot_S64x1024x64_S64x1024x128_S64x64x128_1_1_2_2_0_0.rhsIdx_val_of_single rfl _ _).trans
      (contrEquiv1_symm_val dot_S64x1024x64_S64x1024x128_S64x64x128_1_1_2_2_0_0 1024 rfl rfl n)
  | ⟨2, _⟩ => rfl

/-- The pooling product at `(bb, k, c)`: the sum over the 1024 nodes of graph `bb`. -/
theorem poolDot_apply (l : FVec Ideal S64x1024x64 .f32) (r : FVec Ideal S64x1024x128 .f32) (bb : Fin 64) (k : Fin 64) (c : Fin 128) :
    Host.dotGeneral dot_S64x1024x64_S64x1024x128_S64x64x128_1_1_2_2_0_0 none l r (ix3 bb k c)
      = ∑ n : Fin 1024, l (ix3 bb n k) * r (ix3 bb n c) := by
  simp only [Host.dotGeneral]
  rw [Ideal.dotGeneral_apply,
    ← Equiv.sum_comp (contrEquiv1 dot_S64x1024x64_S64x1024x128_S64x64x128_1_1_2_2_0_0 1024 rfl rfl).symm]
  exact Finset.sum_congr rfl fun n _ => by rw [pool_lhsIdx, pool_rhsIdx]

end

/-! ## The stage as a whole -/

section
variable [Cert.ReferenceIdeal.Facts]

/-- The pooling product of the row softmax of `s3` with `x3`, at `(bb, k, c)`. -/
theorem poolT_apply (s3 : FVec Ideal S64x1024x64 .f32) (x3 : FVec Ideal S64x1024x128 .f32) (bb : Fin 64) (k : Fin 64) (c : Fin 128) :
    Cert.RefTerms.poolT s3 x3 (ix3 bb k c)
      = ∑ n : Fin 1024, Cert.Spec.rowSoftmax (fun k' => s3 (ix3 bb n k')) k * x3 (ix3 bb n c) := by
  unfold Cert.RefTerms.poolT
  rw [poolDot_apply]
  exact Finset.sum_congr rfl fun n _ => by rw [smxT_apply]

/-- The reference's pooled features are `pool3` of the reshaped inputs. -/
theorem poolT_eq (agg : FVec Ideal S65536x64 .f32) (x : FVec Ideal S65536x128 .f32) (Wr : FVec Ideal S128x64 .f32)
    (b : FVec Ideal S64 .f32) (h1 : S65536x64.ShapeCasts Cert.Spec.SA3) (h2 : S65536x128.ShapeCasts Cert.Spec.SX3)
    (h3 : S64.ShapeCasts Cert.Spec.SB3) :
    Cert.RefTerms.poolT (F := Ideal) (Cert.RefTerms.s3T (Cert.RefTerms.scoreT agg x Wr b)) (Cert.RefTerms.x3T x)
      = Cert.Spec.pool3 (shapeCast Cert.Spec.SA3 agg h1) (shapeCast Cert.Spec.SX3 x h2) Wr (shapeCast Cert.Spec.SB3 b h3) := by
  funext i
  obtain ⟨bb, k, c, rfl⟩ : ∃ bb k c, i = ix3 bb k c := ⟨i 0, i 1, i 2, eq_ix3 i⟩
  rw [poolT_apply]
  show _ = ∑ n : Fin 1024,
    Cert.Spec.rowSoftmax (Cert.Spec.score3 (shapeCast Cert.Spec.SA3 agg h1) (shapeCast Cert.Spec.SX3 x h2) Wr
      (shapeCast Cert.Spec.SB3 b h3) bb n) k * shapeCast Cert.Spec.SX3 x h2 (ix3 bb n c)
  refine Finset.sum_congr rfl fun n _ => ?_
  have e : (fun k' => Cert.RefTerms.s3T (F := Ideal) (Cert.RefTerms.scoreT agg x Wr b) (ix3 bb n k'))
      = Cert.Spec.score3 (shapeCast Cert.Spec.SA3 agg h1) (shapeCast Cert.Spec.SX3 x h2) Wr (shapeCast Cert.Spec.SB3 b h3) bb n :=
    funext fun k' => s3T_scoreT_apply agg x Wr b h1 h2 h3 bb n k'
  rw [e, x3T_apply x h2]

end

end Cert.RefPool

end
-- ==== Proof.RefOut.lean ====
/-
  The reference's first result is the common closed form: its ELU-of-product is msg (index by index), its
  gather and scatter-add are the same two whole-array operations, and its softmax-and-pool over the reshaped
  scores is pool3 of the reshaped arrays.
-/
import proofs.«421208_j1632087572809_3_alg».proof.Proof.OutSpec
import proofs.«421208_j1632087572809_3_alg».proof.Proof.RefPool
import proofs.«421208_j1632087572809_3_alg».proof.Proof.Region0
import proofs.«421208_j1632087572809_3_alg».proof.Proof.Gen.ReferenceIdeal

noncomputable section

namespace Cert.RefOut

open Idealize.ShloMosaic

/-- The reference's aggregation term and the kernel program's are one term at the extended reals (widening a
    float format is the identity there, and the two programs' dimension records have the same fields). -/
theorem aggT_eq (M : FVec Ideal Cert.ReferenceIdeal.S65536x64 .f32) (e : IVec Cert.ReferenceIdeal.S2x2097152 32) :
    Cert.RefTerms.aggT (F := Ideal) M e = Cert.KernelIdeal.Reads.aggK (F := Ideal) M e := rfl

theorem ref_out (x : FVec Ideal Cert.ReferenceIdeal.S65536x128 .f32) (e : IVec Cert.ReferenceIdeal.S2x2097152 32)
    (Wm Wr : FVec Ideal Cert.ReferenceIdeal.S128x64 .f32) (b : FVec Ideal Cert.ReferenceIdeal.S64 .f32) :
    Cert.RefTerms.outT (F := Ideal) x e Wm Wr b = Cert.OutSpec.outS x e Wm Wr b := by
  unfold Cert.RefTerms.outT Cert.OutSpec.outS
  rw [Cert.RefPool.poolT_eq (Cert.RefTerms.aggT (Cert.RefTerms.msgT x Wm) e) x Wr b
        Cert.KernelIdeal.Facts₀.shapeCasts_S65536x64_S64x1024x64 Cert.KernelIdeal.Facts₀.shapeCasts_S65536x128_S64x1024x128
        Cert.KernelIdeal.Facts₀.shapeCasts_S64_S1x1x64,
      Cert.KernelIdeal.Region0.msgT_eq, aggT_eq]

end Cert.RefOut

end
-- ==== Proof.RefOps.lean ====
/-
  The reference program's @main as lists of its host operations, one list per statement window, in order.
  A call of a module-local function is written out as the callee's operations over the call's own buffers:
  its arguments are the call's operands, its values the fields of the call's record.
-/
import proofs.«421208_j1632087572809_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 130 operations of statement window 0. -/
abbrev ops0 : List (HloOp τ sig (Elt F)) :=
  [ unary main_arg1 main_v0 ((extractStridedSlice S1x2097152 ![0, 0] · slices_S2x2097152_S1x2097152_0_0) : (⟨S2x2097152, .i32⟩ : BufTy).Contents (Elt F) → (⟨S1x2097152, .i32⟩ : BufTy).Contents (Elt F)),
    reshape main_v0 main_v1 rfl shapeCasts_S1x2097152_S2097152,
    unary main_arg1 main_v2 ((extractStridedSlice S1x2097152 ![1, 0] · slices_S2x2097152_S1x2097152_1_0) : (⟨S2x2097152, .i32⟩ : BufTy).Contents (Elt F) → (⟨S1x2097152, .i32⟩ : BufTy).Contents (Elt F)),
    reshape main_v2 main_v3 rfl shapeCasts_S1x2097152_S2097152,
    binary main_arg0 main_arg3 main_v4 ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)),
    TRef.nullary main_call0.cst (constant S_ .f32 0x00000000#32),
    TRef.unary main_call0.cst main_call0.v0 (broadcastInDim S65536x64 ![] bcast_S_S65536x64),
    TRef.binary (.of main_v4) main_call0.v0 main_call0.v1 (cmpf .ogt),
    TRef.nullary main_call0.cst_0 (constant S_ .f32 0x00000000#32),
    TRef.unary main_call0.cst_0 main_call0.v2 (broadcastInDim S65536x64 ![] bcast_S_S65536x64),
    TRef.binary (.of main_v4) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S65536x64 ![] bcast_S_S65536x64),
    TRef.ternary main_call0.v3 main_call0.call0.v1 (.of main_v4) main_call0.call0.v2 select,
    TRef.unary main_call0.call0.v2 main_call0.v5 Host.expm1,
    TRef.nullary main_call0.cst_2 (constant S_ .f32 0x3F800000#32),
    TRef.unary main_call0.cst_2 main_call0.v6 (broadcastInDim S65536x64 ![] bcast_S_S65536x64),
    TRef.binary main_call0.v6 main_call0.v5 main_call0.v7 mulf,
    TRef.ternary main_call0.v1 (.of main_v4) main_call0.v7 main_call0.call1.v0 select,
    nullary main_c (constantI S_ 32 0#32),
    unary main_c main_v6 (broadcastInDim S2097152 ![] bcast_S_S2097152 : (⟨S_, .i32⟩ : BufTy).Contents (Elt F) → (⟨S2097152, .i32⟩ : BufTy).Contents (Elt F)),
    binary main_v1 main_v6 main_v7 (cmpi .slt : (⟨S2097152, .i32⟩ : BufTy).Contents (Elt F) → (⟨S2097152, .i32⟩ : BufTy).Contents (Elt F) → (⟨S2097152, .i1⟩ : BufTy).Contents (Elt F)),
    nullary main_c_0 (constantI S_ 32 65536#32),
    unary main_c_0 main_v8 (broadcastInDim S2097152 ![] bcast_S_S2097152 : (⟨S_, .i32⟩ : BufTy).Contents (Elt F) → (⟨S2097152, .i32⟩ : BufTy).Contents (Elt F)),
    binary main_v1 main_v8 main_v9 (addi : (⟨S2097152, .i32⟩ : BufTy).Contents (Elt F) → (⟨S2097152, .i32⟩ : BufTy).Contents (Elt F) → (⟨S2097152, .i32⟩ : BufTy).Contents (Elt F)),
    ternary main_v7 main_v9 main_v1 main_v10 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v10 main_v11 (broadcastInDim S2097152x1 ![0] bcast_S2097152_S2097152x1_0 : (⟨S2097152, .i32⟩ : BufTy).Contents (Elt F) → (⟨S2097152x1, .i32⟩ : BufTy).Contents (Elt F)),
    binary main_v5 main_v11 main_v12 ((fun x i => Host.gather gather_S65536x64_S2097152x1_S2097152x64_1_0_n_n_0_1_164 x i) : (⟨S65536x64, .f32⟩ : BufTy).Contents (Elt F) → (⟨S2097152x1, .i32⟩ : BufTy).Contents (Elt F) → (⟨S2097152x64, .f32⟩ : BufTy).Contents (Elt F)),
    nullary main_cst (constant S_ .f32 0x00000000#32),
    unary main_cst main_v13 (broadcastInDim S65536x64 ![] bcast_S_S65536x64 : (⟨S_, .f32⟩ : BufTy).Contents (Elt F) → (⟨S65536x64, .f32⟩ : BufTy).Contents (Elt F)),
    unary main_v3 main_v14 (broadcastInDim S2097152x1 ![0] bcast_S2097152_S2097152x1_0 : (⟨S2097152, .i32⟩ : BufTy).Contents (Elt F) → (⟨S2097152x1, .i32⟩ : BufTy).Contents (Elt F)),
    ternary main_v13 main_v14 main_v12 main_v15 ((fun x i u => Host.scatterAdd scatter_S65536x64_S2097152x1_S2097152x64_1_0_0_1 x i u) : (⟨S65536x64, .f32⟩ : BufTy).Contents (Elt F) → (⟨S2097152x1, .i32⟩ : BufTy).Contents (Elt F) → (⟨S2097152x64, .f32⟩ : BufTy).Contents (Elt F) → (⟨S65536x64, .f32⟩ : BufTy).Contents (Elt F)),
    binary main_arg0 main_arg4 main_v16 ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)),
    binary main_v15 main_v16 main_v17 (addf : (⟨S65536x64, .f32⟩ : BufTy).Contents (Elt F) → (⟨S65536x64, .f32⟩ : BufTy).Contents (Elt F) → (⟨S65536x64, .f32⟩ : BufTy).Contents (Elt F)),
    unary main_arg5 main_v18 (broadcastInDim S1x64 ![1] bcast_S64_S1x64_1 : (⟨S64, .f32⟩ : BufTy).Contents (Elt F) → (⟨S1x64, .f32⟩ : BufTy).Contents (Elt F)),
    unary main_v18 main_v19 (broadcastInDim S65536x64 ![0, 1] bcast_S1x64_S65536x64_0_1 : (⟨S1x64, .f32⟩ : BufTy).Contents (Elt F) → (⟨S65536x64, .f32⟩ : BufTy).Contents (Elt F)),
    binary main_v17 main_v19 main_v20 (addf : (⟨S65536x64, .f32⟩ : BufTy).Contents (Elt F) → (⟨S65536x64, .f32⟩ : BufTy).Contents (Elt F) → (⟨S65536x64, .f32⟩ : BufTy).Contents (Elt F)),
    unary main_v20 main_v21 (Host.tanh : (⟨S65536x64, .f32⟩ : BufTy).Contents (Elt F) → (⟨S65536x64, .f32⟩ : BufTy).Contents (Elt F)),
    reshape main_arg0 main_v22 rfl shapeCasts_S65536x128_S64x1024x128,
    reshape main_v21 main_v23 rfl shapeCasts_S65536x64_S64x1024x64,
    nullary main_c_1 (constantI S_ 32 1024#32),
    TRef.unary (.of main_c_1) main_call1.v0 id,
    TRef.unary main_call1.v0 main_call1.v1 (broadcastInDim S2097152 ![] bcast_S_S2097152),
    TRef.binary (.of main_v1) main_call1.v1 main_call1.v2 Host.divsi,
    TRef.unary (.of main_v1) main_call1.v3 signi,
    TRef.unary main_call1.v0 main_call1.v4 signi,
    TRef.unary main_call1.v4 main_call1.v5 (broadcastInDim S2097152 ![] bcast_S_S2097152),
    TRef.binary main_call1.v3 main_call1.v5 main_call1.v6 (cmpi .ne),
    TRef.unary main_call1.v0 main_call1.v7 (broadcastInDim S2097152 ![] bcast_S_S2097152),
    TRef.binary (.of main_v1) main_call1.v7 main_call1.v8 Host.remsi,
    TRef.nullary main_call1.c (constantI S_ 32 0#32),
    TRef.unary main_call1.c main_call1.v9 (broadcastInDim S2097152 ![] bcast_S_S2097152),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S2097152 ![] bcast_S_S2097152),
    TRef.binary main_call1.v2 main_call1.v12 main_call1.v13 subi,
    TRef.ternary main_call1.v11 main_call1.v13 main_call1.v2 main_call1.call0.v0 select,
    nullary main_cst_2 (constant S_ .f32 0x00000000#32),
    unary main_cst_2 main_v25 (broadcastInDim S64x1024x1024 ![] bcast_S_S64x1024x1024 : (⟨S_, .f32⟩ : BufTy).Contents (Elt F) → (⟨S64x1024x1024, .f32⟩ : BufTy).Contents (Elt F)),
    nullary main_c_3 (constantI S_ 32 1024#32),
    TRef.unary (.of main_c_3) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S2097152 ![] bcast_S_S2097152),
    TRef.binary (.of main_v1) main_call2.v3 main_call2.v4 Host.remsi,
    TRef.nullary main_call2.c_1 (constantI S_ 32 0#32),
    TRef.unary main_call2.c_1 main_call2.v5 (broadcastInDim S2097152 ![] bcast_S_S2097152),
    TRef.binary main_call2.v4 main_call2.v5 main_call2.v6 (cmpi .ne),
    TRef.nullary main_call2.c_2 (constantI S_ 32 0#32),
    TRef.unary main_call2.c_2 main_call2.v7 (broadcastInDim S2097152 ![] bcast_S_S2097152),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S2097152 ![] bcast_S_S2097152),
    TRef.binary main_call2.v8 main_call2.v10 main_call2.v11 (cmpi .ne),
    TRef.binary main_call2.v11 main_call2.v6 main_call2.v12 andi,
    TRef.unary main_call2.call0.v0 main_call2.v13 (broadcastInDim S2097152 ![] bcast_S_S2097152),
    TRef.binary main_call2.v4 main_call2.v13 main_call2.v14 addi,
    TRef.ternary main_call2.v12 main_call2.v14 main_call2.v4 main_call2.v15 select,
    nullary main_c_4 (constantI S_ 32 1024#32),
    TRef.unary (.of main_c_4) main_call3.v0 id,
    TRef.nullary main_call3.c (constantI S_ 32 0#32),
    TRef.binary main_call3.v0 main_call3.c main_call3.v1 (cmpi .eq),
    TRef.nullary main_call3.c_0 (constantI S_ 32 1#32),
    TRef.ternary main_call3.v1 main_call3.c_0 main_call3.v0 main_call3.call0.v0 select,
    TRef.unary main_call3.call0.v0 main_call3.v3 (broadcastInDim S2097152 ![] bcast_S_S2097152),
    TRef.binary (.of main_v3) main_call3.v3 main_call3.v4 Host.remsi,
    TRef.nullary main_call3.c_1 (constantI S_ 32 0#32),
    TRef.unary main_call3.c_1 main_call3.v5 (broadcastInDim S2097152 ![] bcast_S_S2097152),
    TRef.binary main_call3.v4 main_call3.v5 main_call3.v6 (cmpi .ne),
    TRef.nullary main_call3.c_2 (constantI S_ 32 0#32),
    TRef.unary main_call3.c_2 main_call3.v7 (broadcastInDim S2097152 ![] bcast_S_S2097152),
    TRef.binary main_call3.v4 main_call3.v7 main_call3.v8 (cmpi .slt),
    TRef.nullary main_call3.c_3 (constantI S_ 32 0#32),
    TRef.binary main_call3.call0.v0 main_call3.c_3 main_call3.v9 (cmpi .slt),
    TRef.unary main_call3.v9 main_call3.v10 (broadcastInDim S2097152 ![] bcast_S_S2097152),
    TRef.binary main_call3.v8 main_call3.v10 main_call3.v11 (cmpi .ne),
    TRef.binary main_call3.v11 main_call3.v6 main_call3.v12 andi,
    TRef.unary main_call3.call0.v0 main_call3.v13 (broadcastInDim S2097152 ![] bcast_S_S2097152),
    TRef.binary main_call3.v4 main_call3.v13 main_call3.v14 addi,
    TRef.ternary main_call3.v12 main_call3.v14 main_call3.v4 main_call3.v15 select,
    nullary main_c_5 (constantI S_ 32 0#32),
    unary main_c_5 main_v28 (broadcastInDim S2097152 ![] bcast_S_S2097152 : (⟨S_, .i32⟩ : BufTy).Contents (Elt F) → (⟨S2097152, .i32⟩ : BufTy).Contents (Elt F)),
    binary main_v24 main_v28 main_v29 (cmpi .slt : (⟨S2097152, .i32⟩ : BufTy).Contents (Elt F) → (⟨S2097152, .i32⟩ : BufTy).Contents (Elt F) → (⟨S2097152, .i1⟩ : BufTy).Contents (Elt F)),
    nullary main_c_6 (constantI S_ 32 64#32),
    unary main_c_6 main_v30 (broadcastInDim S2097152 ![] bcast_S_S2097152 : (⟨S_, .i32⟩ : BufTy).Contents (Elt F) → (⟨S2097152, .i32⟩ : BufTy).Contents (Elt F)),
    binary main_v24 main_v30 main_v31 (addi : (⟨S2097152, .i32⟩ : BufTy).Contents (Elt F) → (⟨S2097152, .i32⟩ : BufTy).Contents (Elt F) → (⟨S2097152, .i32⟩ : BufTy).Contents (Elt F)),
    ternary main_v29 main_v31 main_v24 main_v32 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_7 (constantI S_ 32 0#32),
    unary main_c_7 main_v33 (broadcastInDim S2097152 ![] bcast_S_S2097152 : (⟨S_, .i32⟩ : BufTy).Contents (Elt F) → (⟨S2097152, .i32⟩ : BufTy).Contents (Elt F)),
    binary main_v26 main_v33 main_v34 (cmpi .slt : (⟨S2097152, .i32⟩ : BufTy).Contents (Elt F) → (⟨S2097152, .i32⟩ : BufTy).Contents (Elt F) → (⟨S2097152, .i1⟩ : BufTy).Contents (Elt F)),
    nullary main_c_8 (constantI S_ 32 1024#32),
    unary main_c_8 main_v35 (broadcastInDim S2097152 ![] bcast_S_S2097152 : (⟨S_, .i32⟩ : BufTy).Contents (Elt F) → (⟨S2097152, .i32⟩ : BufTy).Contents (Elt F)),
    binary main_v26 main_v35 main_v36 (addi : (⟨S2097152, .i32⟩ : BufTy).Contents (Elt F) → (⟨S2097152, .i32⟩ : BufTy).Contents (Elt F) → (⟨S2097152, .i32⟩ : BufTy).Contents (Elt F)),
    ternary main_v34 main_v36 main_v26 main_v37 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_9 (constantI S_ 32 0#32),
    unary main_c_9 main_v38 (broadcastInDim S2097152 ![] bcast_S_S2097152 : (⟨S_, .i32⟩ : BufTy).Contents (Elt F) → (⟨S2097152, .i32⟩ : BufTy).Contents (Elt F)),
    binary main_v27 main_v38 main_v39 (cmpi .slt : (⟨S2097152, .i32⟩ : BufTy).Contents (Elt F) → (⟨S2097152, .i32⟩ : BufTy).Contents (Elt F) → (⟨S2097152, .i1⟩ : BufTy).Contents (Elt F)),
    nullary main_c_10 (constantI S_ 32 1024#32),
    unary main_c_10 main_v40 (broadcastInDim S2097152 ![] bcast_S_S2097152 : (⟨S_, .i32⟩ : BufTy).Contents (Elt F) → (⟨S2097152, .i32⟩ : BufTy).Contents (Elt F)),
    binary main_v27 main_v40 main_v41 (addi : (⟨S2097152, .i32⟩ : BufTy).Contents (Elt F) → (⟨S2097152, .i32⟩ : BufTy).Contents (Elt F) → (⟨S2097152, .i32⟩ : BufTy).Contents (Elt F)),
    ternary main_v39 main_v41 main_v27 main_v42 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v32 main_v43 (broadcastInDim S2097152x1 ![0] bcast_S2097152_S2097152x1_0 : (⟨S2097152, .i32⟩ : BufTy).Contents (Elt F) → (⟨S2097152x1, .i32⟩ : BufTy).Contents (Elt F)),
    unary main_v37 main_v44 (broadcastInDim S2097152x1 ![0] bcast_S2097152_S2097152x1_0 : (⟨S2097152, .i32⟩ : BufTy).Contents (Elt F) → (⟨S2097152x1, .i32⟩ : BufTy).Contents (Elt F)),
    unary main_v42 main_v45 (broadcastInDim S2097152x1 ![0] bcast_S2097152_S2097152x1_0 : (⟨S2097152, .i32⟩ : BufTy).Contents (Elt F) → (⟨S2097152x1, .i32⟩ : BufTy).Contents (Elt F)),
    nary ![main_v43, main_v44, main_v45] main_v46 (fun u => concatenate S2097152x3 1 [⟨S2097152x1, u 0⟩, ⟨S2097152x1, u 1⟩, ⟨S2097152x1, u 2⟩] concatenates_S2097152x1_S2097152x1_S2097152x1_S2097152x3_d1) ]

/-- The 43 operations of statement window 1. -/
abbrev ops1 : List (HloOp τ sig (Elt F)) :=
  [ nullary main_cst_11 (constant S_ .f32 0x3F800000#32),
    unary main_cst_11 main_v47 (broadcastInDim S2097152 ![] bcast_S_S2097152 : (⟨S_, .f32⟩ : BufTy).Contents (Elt F) → (⟨S2097152, .f32⟩ : BufTy).Contents (Elt F)),
    ternary main_v25 main_v46 main_v47 main_v48 ((fun x i u => Host.scatterAdd scatter_S64x1024x1024_S2097152x3_S2097152_n_012_012_1 x i u) : (⟨S64x1024x1024, .f32⟩ : BufTy).Contents (Elt F) → (⟨S2097152x3, .i32⟩ : BufTy).Contents (Elt F) → (⟨S2097152, .f32⟩ : BufTy).Contents (Elt F) → (⟨S64x1024x1024, .f32⟩ : BufTy).Contents (Elt F)),
    nullary main_cst_12 (constant S_ .f32 0xFF800000#32),
    binary main_v23 main_cst_12 main_v49 ((fun x v => Host.reduce FloatOps.maximumf x v reducesTo_S64x1024x64_S64x1024_d2 h_S_) : (⟨S64x1024x64, .f32⟩ : BufTy).Contents (Elt F) → (⟨S_, .f32⟩ : BufTy).Contents (Elt F) → (⟨S64x1024, .f32⟩ : BufTy).Contents (Elt F)),
    nullary main_cst_13 (constant S_ .f32 0xFF800000#32),
    unary main_cst_13 main_v50 (broadcastInDim S64x1024 ![] bcast_S_S64x1024 : (⟨S_, .f32⟩ : BufTy).Contents (Elt F) → (⟨S64x1024, .f32⟩ : BufTy).Contents (Elt F)),
    binary main_v50 main_v49 main_v51 (maximumf : (⟨S64x1024, .f32⟩ : BufTy).Contents (Elt F) → (⟨S64x1024, .f32⟩ : BufTy).Contents (Elt F) → (⟨S64x1024, .f32⟩ : BufTy).Contents (Elt F)),
    unary main_v51 main_v52 (broadcastInDim S64x1024x1 ![0, 1] bcast_S64x1024_S64x1024x1_0_1 : (⟨S64x1024, .f32⟩ : BufTy).Contents (Elt F) → (⟨S64x1024x1, .f32⟩ : BufTy).Contents (Elt F)),
    unary main_v52 main_v53 (broadcastInDim S64x1024x64 ![0, 1, 2] bcast_S64x1024x1_S64x1024x64_0_1_2 : (⟨S64x1024x1, .f32⟩ : BufTy).Contents (Elt F) → (⟨S64x1024x64, .f32⟩ : BufTy).Contents (Elt F)),
    binary main_v23 main_v53 main_v54 (subf : (⟨S64x1024x64, .f32⟩ : BufTy).Contents (Elt F) → (⟨S64x1024x64, .f32⟩ : BufTy).Contents (Elt F) → (⟨S64x1024x64, .f32⟩ : BufTy).Contents (Elt F)),
    unary main_v54 main_v55 (Host.exp : (⟨S64x1024x64, .f32⟩ : BufTy).Contents (Elt F) → (⟨S64x1024x64, .f32⟩ : BufTy).Contents (Elt F)),
    nullary main_cst_14 (constant S_ .f32 0x00000000#32),
    binary main_v55 main_cst_14 main_v56 ((fun x v => Host.reduceAdd x v reducesTo_S64x1024x64_S64x1024_d2 h_S_) : (⟨S64x1024x64, .f32⟩ : BufTy).Contents (Elt F) → (⟨S_, .f32⟩ : BufTy).Contents (Elt F) → (⟨S64x1024, .f32⟩ : BufTy).Contents (Elt F)),
    unary main_v56 main_v57 (broadcastInDim S64x1024x1 ![0, 1] bcast_S64x1024_S64x1024x1_0_1 : (⟨S64x1024, .f32⟩ : BufTy).Contents (Elt F) → (⟨S64x1024x1, .f32⟩ : BufTy).Contents (Elt F)),
    unary main_v57 main_v58 (broadcastInDim S64x1024x64 ![0, 1, 2] bcast_S64x1024x1_S64x1024x64_0_1_2 : (⟨S64x1024x1, .f32⟩ : BufTy).Contents (Elt F) → (⟨S64x1024x64, .f32⟩ : BufTy).Contents (Elt F)),
    binary main_v55 main_v58 main_v59 (Host.divf : (⟨S64x1024x64, .f32⟩ : BufTy).Contents (Elt F) → (⟨S64x1024x64, .f32⟩ : BufTy).Contents (Elt F) → (⟨S64x1024x64, .f32⟩ : BufTy).Contents (Elt F)),
    binary main_v59 main_v22 main_v60 ((fun l r => Host.dotGeneral dot_S64x1024x64_S64x1024x128_S64x64x128_1_1_2_2_0_0 none l r) : (⟨S64x1024x64, .f32⟩ : BufTy).Contents (Elt F) → (⟨S64x1024x128, .f32⟩ : BufTy).Contents (Elt F) → (⟨S64x64x128, .f32⟩ : BufTy).Contents (Elt F)),
    unary main_v59 main_v61 ((transpose S64x64x1024 [0, 2, 1] · transposes_S64x1024x64_S64x64x1024_0_2_1) : (⟨S64x1024x64, .f32⟩ : BufTy).Contents (Elt F) → (⟨S64x64x1024, .f32⟩ : BufTy).Contents (Elt F)),
    binary main_v48 main_v61 main_v62 ((fun l r => Host.dotGeneral dot_S64x1024x1024_S64x64x1024_S64x1024x64_1_2_2_1_0_0 none l r) : (⟨S64x1024x1024, .f32⟩ : BufTy).Contents (Elt F) → (⟨S64x64x1024, .f32⟩ : BufTy).Contents (Elt F) → (⟨S64x1024x64, .f32⟩ : BufTy).Contents (Elt F)),
    binary main_v62 main_v59 main_v63 ((fun l r => Host.dotGeneral dot_S64x1024x64_S64x1024x64_S64x64x64_1_1_2_2_0_0 none l r) : (⟨S64x1024x64, .f32⟩ : BufTy).Contents (Elt F) → (⟨S64x1024x64, .f32⟩ : BufTy).Contents (Elt F) → (⟨S64x64x64, .f32⟩ : BufTy).Contents (Elt F)),
    reshape main_v60 main_v64 rfl shapeCasts_S64x64x128_S4096x128,
    nullary main_v65 (iotaInDim S64 32 0),
    nullary main_v66 (iotaInDim S64 32 0),
    unary main_v65 main_v67 (broadcastInDim S64x64 ![0] bcast_S64_S64x64_0 : (⟨S64, .i32⟩ : BufTy).Contents (Elt F) → (⟨S64x64, .i32⟩ : BufTy).Contents (Elt F)),
    unary main_v66 main_v68 (broadcastInDim S64x64 ![1] bcast_S64_S64x64_1 : (⟨S64, .i32⟩ : BufTy).Contents (Elt F) → (⟨S64x64, .i32⟩ : BufTy).Contents (Elt F)),
    unary main_v67 main_v69 (broadcastInDim S1x64x64 ![1, 2] bcast_S64x64_S1x64x64_1_2 : (⟨S64x64, .i32⟩ : BufTy).Contents (Elt F) → (⟨S1x64x64, .i32⟩ : BufTy).Contents (Elt F)),
    unary main_v68 main_v70 (broadcastInDim S1x64x64 ![1, 2] bcast_S64x64_S1x64x64_1_2 : (⟨S64x64, .i32⟩ : BufTy).Contents (Elt F) → (⟨S1x64x64, .i32⟩ : BufTy).Contents (Elt F)),
    binary main_v69 main_v70 main_v71 ((fun a b => concatenate S2x64x64 0 [⟨S1x64x64, a⟩, ⟨S1x64x64, b⟩] concatenates_S1x64x64_S1x64x64_S2x64x64_d0) : (⟨S1x64x64, .i32⟩ : BufTy).Contents (Elt F) → (⟨S1x64x64, .i32⟩ : BufTy).Contents (Elt F) → (⟨S2x64x64, .i32⟩ : BufTy).Contents (Elt F)),
    reshape main_v71 main_v72 rfl shapeCasts_S2x64x64_S2x4096,
    nullary main_v73 (iotaInDim S64 32 0),
    nullary main_c_15 (constantI S_ 32 64#32),
    unary main_c_15 main_v74 (broadcastInDim S64 ![] bcast_S_S64 : (⟨S_, .i32⟩ : BufTy).Contents (Elt F) → (⟨S64, .i32⟩ : BufTy).Contents (Elt F)),
    binary main_v73 main_v74 main_v75 (muli : (⟨S64, .i32⟩ : BufTy).Contents (Elt F) → (⟨S64, .i32⟩ : BufTy).Contents (Elt F) → (⟨S64, .i32⟩ : BufTy).Contents (Elt F)),
    unary main_v75 main_v76 (broadcastInDim S1x64x1 ![1] bcast_S64_S1x64x1_1 : (⟨S64, .i32⟩ : BufTy).Contents (Elt F) → (⟨S1x64x1, .i32⟩ : BufTy).Contents (Elt F)),
    unary main_v72 main_v77 (broadcastInDim S2x1x4096 ![0, 2] bcast_S2x4096_S2x1x4096_0_2 : (⟨S2x4096, .i32⟩ : BufTy).Contents (Elt F) → (⟨S2x1x4096, .i32⟩ : BufTy).Contents (Elt F)),
    unary main_v77 main_v78 (broadcastInDim S2x64x4096 ![0, 1, 2] bcast_S2x1x4096_S2x64x4096_0_1_2 : (⟨S2x1x4096, .i32⟩ : BufTy).Contents (Elt F) → (⟨S2x64x4096, .i32⟩ : BufTy).Contents (Elt F)),
    unary main_v76 main_v79 (broadcastInDim S2x64x4096 ![0, 1, 2] bcast_S1x64x1_S2x64x4096_0_1_2 : (⟨S1x64x1, .i32⟩ : BufTy).Contents (Elt F) → (⟨S2x64x4096, .i32⟩ : BufTy).Contents (Elt F)),
    binary main_v78 main_v79 main_v80 (addi : (⟨S2x64x4096, .i32⟩ : BufTy).Contents (Elt F) → (⟨S2x64x4096, .i32⟩ : BufTy).Contents (Elt F) → (⟨S2x64x4096, .i32⟩ : BufTy).Contents (Elt F)),
    reshape main_v80 main_v81 rfl shapeCasts_S2x64x4096_S2x262144,
    nullary main_v82 (iotaInDim S64 32 0),
    unary main_v82 main_v83 (broadcastInDim S64x64 ![0] bcast_S64_S64x64_0 : (⟨S64, .i32⟩ : BufTy).Contents (Elt F) → (⟨S64x64, .i32⟩ : BufTy).Contents (Elt F)),
    reshape main_v83 main_v84 rfl shapeCasts_S64x64_S4096 ]

end Cert.ReferenceIdeal.RefRun

end
-- ==== Proof.RefRun.lean ====
/-
  The run of the reference program. Its @main is a straight line of host operations: the two statement windows,
  with the module-local functions (the ELU and its two selects, the floor division and its select, the remainder,
  called twice, and its select) written out at their calls over each call's own buffers, are the sequences of the
  operation lists `ops0` and `ops1`, and one after the other they are the sequence of `ops0 ++ ops1`. Every
  operation touches TensorCore buffers only and determines its result, so from any memory with zero counters every
  weakly fair execution terminates with each buffer at the fold of the operations' results over the launch contents.
  The six argument buffers are written by no operation: at each of them the fold is the launch contents.
-/
import proofs.«421208_j1632087572809_3_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two lines in a row is the second line's fold over the first's. -/
theorem after_app : ∀ (l₁ l₂ : List (HloOp τ sig (Elt F))) (V : Valuation τ sig (Elt F)),
    after (l₁ ++ l₂) V = after l₂ (after l₁ V)
  | [], _, _ => rfl
  | _ :: l₁, l₂, _ => after_app l₁ l₂ _

/-- @main's 173 operations, in order: the first window's 130, then the second's 43. -/
abbrev ops : List (HloOp τ sig (Elt F)) := ops0 ++ ops1

theorem ops_eq : (ops : List (HloOp τ sig (Elt F))) = ops0 ++ ops1 := rfl

-- 130 binds re-associated: the rewrite under the chain recurses once per statement
set_option maxRecDepth 8192 in
/-- The first window is the line `ops0`: the functions' bodies unfolded at their calls and the calls' records at
    their fields, both sides are one chain of operation steps once sequencing is re-associated; the window ends on
    an operation, the line on the return after it, which binding leaves out. -/
theorem main_part0_eq (c : Dev nD) : main_part0 (F := F) c = seq ops0 := by
  simp only [main_part0, fn_elu.body, fn_where.body, fn_where_0.body, fn_floor_divide.body, fn_where_1.body,
    fn_remainder.body, fn_where_2.body, seq, bind_assoc, pure_bind]
  rfl

set_option maxRecDepth 8192 in
/-- The second window is the line `ops1`. -/
theorem main_part1_eq (c : Dev nD) : main_part1 (F := F) c = seq ops1 := by
  simp only [main_part1, seq, bind_assoc, pure_bind]

/-- @main runs its two windows in order, and two lines in order are their concatenation as one line. -/
theorem main_eq (c : Dev nD) : main (F := F) c = seq ops := by
  rw [ops_eq, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of the first window touches TensorCore references only: each builder's own fact. -/
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

set_option maxRecDepth 8192 in
/-- The same for the second window. -/
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

/-- A member of the concatenation is a member of one of the two lists. -/
theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

set_option maxRecDepth 8192 in
/-- Every operation determines its results (none allocates a buffer of contents not chosen): by cases on the
    literal lists. -/
theorem ops_fresh : ∀ op ∈ (ops : List (HloOp τ sig (Elt F))), op.fresh = ∅ := by
  intro op h
  rcases List.mem_append.mp h with h | h
  · (repeat (cases h with | head => rfl | tail _ h => ?_)); exact nomatch h
  · (repeat (cases h with | head => rfl | tail _ h => ?_)); exact nomatch h

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The arguments are unchanged

Each operation's result at a reference other than its own result buffer is what was there; the references are told
apart by computation. -/

set_option maxRecDepth 8192 in
/-- No operation writes the node features: after the whole line it holds what it held. -/
theorem arg0_eq (V : Valuation τ sig (Elt F)) :
    after ops V (main_arg0 : DevRef τ sig) = V (main_arg0 : DevRef τ sig) := by
  rw [ops_eq, after_app]
  after_results_simp

set_option maxRecDepth 8192 in
/-- No operation writes the edge list: after the whole line it holds what it held. -/
theorem arg1_eq (V : Valuation τ sig (Elt F)) :
    after ops V (main_arg1 : DevRef τ sig) = V (main_arg1 : DevRef τ sig) := by
  rw [ops_eq, after_app]
  after_results_simp

set_option maxRecDepth 8192 in
/-- No operation writes the third argument, which the program never reads: after the whole line it holds what it held. -/
theorem arg2_eq (V : Valuation τ sig (Elt F)) :
    after ops V (main_arg2 : DevRef τ sig) = V (main_arg2 : DevRef τ sig) := by
  rw [ops_eq, after_app]
  after_results_simp

set_option maxRecDepth 8192 in
/-- No operation writes the message weights: after the whole line it holds what it held. -/
theorem arg3_eq (V : Valuation τ sig (Elt F)) :
    after ops V (main_arg3 : DevRef τ sig) = V (main_arg3 : DevRef τ sig) := by
  rw [ops_eq, after_app]
  after_results_simp

set_option maxRecDepth 8192 in
/-- No operation writes the root weights: after the whole line it holds what it held. -/
theorem arg4_eq (V : Valuation τ sig (Elt F)) :
    after ops V (main_arg4 : DevRef τ sig) = V (main_arg4 : DevRef τ sig) := by
  rw [ops_eq, after_app]
  after_results_simp

set_option maxRecDepth 8192 in
/-- No operation writes the bias: after the whole line it holds what it held. -/
theorem arg5_eq (V : Valuation τ sig (Elt F)) :
    after ops V (main_arg5 : DevRef τ sig) = V (main_arg5 : DevRef τ sig) := by
  rw [ops_eq, after_app]
  after_results_simp

end Cert.ReferenceIdeal.RefRun

end
-- ==== Proof.RefReads.lean ====
/-
  What the reference's three results hold once its operations have run.

  The operations come in two statement windows, run one after the other, so the contents after the whole
  list are the second window's fold over the first window's. The second window reads two values of the first
  only, the scores and the node features each laid out as 64 graphs of 1024 nodes:
  * the first window leaves there the reshaped scores tanh ((agg + x W_root) + bias), agg the scatter-add
    at the destinations of the ELU messages gathered at the sources, and the reshaped x;
  * from any contents the second window's pooled features are the pooling product of the row softmax of
    those scores with those features, flattened, and its two integer results are constants of the program:
    the all-pairs cluster edges offset per graph, and each cluster's graph number.
  Joined, the three results are the composed whole-array terms over the program's arguments.
-/
import proofs.«421208_j1632087572809_3_alg».proof.Proof.Gen.ReferenceIdeal
import proofs.«421208_j1632087572809_3_alg».proof.Proof.RefOps
import proofs.«421208_j1632087572809_3_alg».proof.Proof.RefTerms
import Idealize.ShloMosaic.Lib.StableHlo.Run

noncomputable section

namespace Cert.ReferenceIdeal.RefReads

open Cert.ReferenceIdeal Cert.ReferenceIdeal.Facts₀ Idealize.ShloMosaic Idealize.ShloMosaic.TcCoe Idealize.ShloMosaic.StableHlo
open Cert.ReferenceIdeal.RefRun (ops0 ops1)

variable {F : FTy → Type} [FloatOps F]

/-- Two lists of operations run one after the other: the second's fold over the first's. -/
private theorem after_app : ∀ (l₁ l₂ : List (HloOp τ sig (Elt F))) (V : Valuation τ sig (Elt F)),
    after (l₁ ++ l₂) V = after l₂ (after l₁ V)
  | [], _, _ => rfl
  | _ :: l₁, l₂, _ => after_app l₁ l₂ _

/-! ## The first window: the reshaped features and the reshaped scores -/

attribute [local irreducible] Host.reduce Host.gather in
set_option maxRecDepth 8192 in
/-- After the first window the reshaped features are the first argument laid out as 64 graphs of 1024 nodes. -/
theorem ops0_v22 (V : Valuation τ sig (Elt F)) :
    after ops0 V (main_v22 : DevRef τ sig) = Cert.RefTerms.x3T (V (main_arg0 : DevRef τ sig)) := by
  after_results_simp
  rfl

attribute [local irreducible] Host.reduce Host.gather in
set_option maxRecDepth 8192 in
/-- After the first window the reshaped scores are the composed score term over the arguments: the ELU messages
    of x W_msg, gathered at the sources and scatter-added at the destinations, plus x W_root, plus the bias,
    through tanh, laid out as 64 graphs of 1024 nodes. -/
theorem ops0_v23 (V : Valuation τ sig (Elt F)) :
    after ops0 V (main_v23 : DevRef τ sig)
      = Cert.RefTerms.s3T (Cert.RefTerms.scoreT
          (Cert.RefTerms.aggT (Cert.RefTerms.msgT (V (main_arg0 : DevRef τ sig)) (V (main_arg3 : DevRef τ sig)))
            (V (main_arg1 : DevRef τ sig)))
          (V (main_arg0 : DevRef τ sig)) (V (main_arg4 : DevRef τ sig)) (V (main_arg5 : DevRef τ sig))) := by
  after_results_simp
  rfl

/-! ## The second window, from any contents -/

set_option maxRecDepth 8192 in
/-- Each pooled cluster's graph number: a constant of the program. -/
theorem ops1_batch (W : Valuation τ sig (Elt F)) :
    after ops1 W (main_v84 : DevRef τ sig) = Cert.RefTerms.batchT := by
  after_results_simp
  rfl

set_option maxRecDepth 8192 in
/-- The all-pairs cluster edges offset by 64 per graph: a constant of the program. -/
theorem ops1_edges (W : Valuation τ sig (Elt F)) :
    after ops1 W (main_v81 : DevRef τ sig) = Cert.RefTerms.edgesT := by
  after_results_simp
  rfl

attribute [local irreducible] Host.reduce Host.gather in
set_option maxRecDepth 8192 in
/-- The pooled features: the pooling product of the row softmax of the reshaped scores with the reshaped
    features, both as the contents the window starts from hold them, flattened. -/
theorem ops1_out (W : Valuation τ sig (Elt F)) :
    after ops1 W (main_v64 : DevRef τ sig)
      = shapeCast S4096x128 (Cert.RefTerms.poolT (W (main_v23 : DevRef τ sig)) (W (main_v22 : DevRef τ sig)))
          shapeCasts_S64x64x128_S4096x128 := by
  after_results_simp
  rfl

/-! ## The three results after the whole list -/

/-- The first result: the pooled features, flat, over the program's arguments. -/
theorem out_eq (V : Valuation τ sig (Elt F)) :
    after (ops0 ++ ops1) V (main_v64 : DevRef τ sig)
      = Cert.RefTerms.outT (V (main_arg0 : DevRef τ sig)) (V (main_arg1 : DevRef τ sig)) (V (main_arg3 : DevRef τ sig))
          (V (main_arg4 : DevRef τ sig)) (V (main_arg5 : DevRef τ sig)) := by
  rw [after_app, ops1_out, ops0_v23, ops0_v22]
  rfl

/-- The second result: the cluster edges. -/
theorem edges_eq (V : Valuation τ sig (Elt F)) :
    after (ops0 ++ ops1) V (main_v81 : DevRef τ sig) = Cert.RefTerms.edgesT := by
  rw [after_app, ops1_edges]

/-- The third result: the clusters' graph numbers. -/
theorem batch_eq (V : Valuation τ sig (Elt F)) :
    after (ops0 ++ ops1) V (main_v84 : DevRef τ sig) = Cert.RefTerms.batchT := by
  rw [after_app, ops1_batch]

end Cert.ReferenceIdeal.RefReads

end
-- ==== Proof.lean ====
/-
  The certificate: a two-kernel graph-pooling layer against its jnp reference, over the extended reals.

  Both programs compute, from node features x [65536, 128], an edge list [2, 2097152], W_msg and W_root [128, 64] and
  a bias [64]: messages elu (x W_msg); their sum over incoming edges (rows gathered at the source nodes, scatter-added
  at the destination nodes); scores tanh ((agg + x W_root) + bias); a softmax over the 64 clusters of each node; and,
  per graph of 1024 nodes, the pooled features out[b,k,c] = sum_n softmax[b,n,k] x[b,n,c], flattened to [4096, 128];
  beside them two integer arrays (all-pairs cluster edges, each cluster's graph number) built from iotas alone.

  The kernel program tiles the first product over 8 row blocks and the score-softmax-pool stage over 16 blocks of four
  graphs; the reference works on whole arrays, writes ELU with expm1 and an inner select, and takes the row maximum
  once more against the bottom element. At the extended reals expm1 y is e^y - 1, a product with one and a maximum
  with the bottom element change nothing, a change of float format is the identity, and a product accumulated into
  zero is the plain sum: both first results are the one closed form `OutSpec.outS`, index by index, with no appeal
  to finiteness. The integer results are the same terms.

  The three frames: the two kernel programs' are the generated launch over @main's segments; the reference's is its
  straight-line run with the results dropped.
-/
import proofs.«421208_j1632087572809_3_alg».proof.Defs
import proofs.«421208_j1632087572809_3_alg».proof.Proof.Gen.Kernel
import proofs.«421208_j1632087572809_3_alg».proof.Proof.Gen.Kernel.Skeleton
import proofs.«421208_j1632087572809_3_alg».proof.Proof.Gen.Kernel.Launch
import proofs.«421208_j1632087572809_3_alg».proof.Proof.Gen.Kernel.Points
import proofs.«421208_j1632087572809_3_alg».proof.Proof.Gen.Kernel.Frame
import proofs.«421208_j1632087572809_3_alg».proof.Proof.Gen.KernelIdeal
import proofs.«421208_j1632087572809_3_alg».proof.Proof.Gen.KernelIdeal.Skeleton
import proofs.«421208_j1632087572809_3_alg».proof.Proof.Gen.KernelIdeal.Launch
import proofs.«421208_j1632087572809_3_alg».proof.Proof.Gen.KernelIdeal.Points
import proofs.«421208_j1632087572809_3_alg».proof.Proof.Gen.KernelIdeal.Frame
import proofs.«421208_j1632087572809_3_alg».proof.Proof.Gen.ReferenceIdeal
import proofs.«421208_j1632087572809_3_alg».proof.Proof.Gen.Pre_finite_inputs
import proofs.«421208_j1632087572809_3_alg».proof.Proof.KernelLaunch
import proofs.«421208_j1632087572809_3_alg».proof.Proof.KernelOut
import proofs.«421208_j1632087572809_3_alg».proof.Proof.RefOut
import proofs.«421208_j1632087572809_3_alg».proof.Proof.RefRun
import proofs.«421208_j1632087572809_3_alg».proof.Proof.RefReads
import Idealize.ShloMosaic.Adequacy
import Idealize.ShloMosaic.Init

set_option maxRecDepth 16384

noncomputable section

namespace Cert.Proof

open Idealize.ShloMosaic Idealize.ShloMosaic.TcCoe Idealize.SL.Sem

/-- The reference runs and keeps its arguments: its straight-line run, each argument buffer read back through the
    fold of its operations (none writes an argument). -/
theorem frame_ref : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c =>
    ⟨(h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _)⟩)
    (Cert.ReferenceIdeal.RefRun.run_main (F := Ideal) m ρ)

/-- From memories agreeing on the arguments both programs end with the closed form in the first result, the same
    integer terms in the other two, and their arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.OutSpec.outS (m ((c.tc : Thread _ _).loc Cert.KernelIdeal.main_arg0)) (m ((c.tc : Thread _ _).loc Cert.KernelIdeal.main_arg1))
      (m ((c.tc : Thread _ _).loc Cert.KernelIdeal.main_arg3)) (m ((c.tc : Thread _ _).loc Cert.KernelIdeal.main_arg4))
      (m ((c.tc : Thread _ _).loc Cert.KernelIdeal.main_arg5)),
    fun _ => Cert.KernelIdeal.Reads.edgesK, fun _ => Cert.KernelIdeal.Reads.batchK, ?_, ?_⟩
  · exact (θ_run Cert.KernelIdeal.defs _ _).mono (fun _ h c =>
      ⟨(h c Cert.KernelIdeal.main_v20 (by decide)).trans (Cert.KernelOut.kernel_out m ρ c),
       (h c Cert.KernelIdeal.main_v37 (by decide)).trans (Cert.KernelIdeal.Reads.W4_v37 m ρ c),
       (h c Cert.KernelIdeal.main_v40 (by decide)).trans (Cert.KernelIdeal.Reads.W4_v40 m ρ c),
       (h c Cert.KernelIdeal.main_arg0 (by decide)).trans (Cert.KernelIdeal.Gen.W4_main_arg0 m ρ c),
       (h c Cert.KernelIdeal.main_arg1 (by decide)).trans (Cert.KernelIdeal.Gen.W4_main_arg1 m ρ c),
       (h c Cert.KernelIdeal.main_arg2 (by decide)).trans (Cert.KernelIdeal.Gen.W4_main_arg2 m ρ c),
       (h c Cert.KernelIdeal.main_arg3 (by decide)).trans (Cert.KernelIdeal.Gen.W4_main_arg3 m ρ c),
       (h c Cert.KernelIdeal.main_arg4 (by decide)).trans (Cert.KernelIdeal.Gen.W4_main_arg4 m ρ c),
       (h c Cert.KernelIdeal.main_arg5 (by decide)).trans (Cert.KernelIdeal.Gen.W4_main_arg5 m ρ c)⟩)
      (Cert.KernelIdeal.Launch.run_W4 (F := Ideal) m ρ)
  · refine (θ_run Cert.ReferenceIdeal.defs _ _).mono (fun _ h c =>
      ⟨?_,
       (h c Cert.ReferenceIdeal.main_v81).trans ((Cert.ReferenceIdeal.RefReads.edges_eq _).trans rfl),
       (h c Cert.ReferenceIdeal.main_v84).trans ((Cert.ReferenceIdeal.RefReads.batch_eq _).trans rfl),
       (h c Cert.ReferenceIdeal.main_arg0).trans (Cert.ReferenceIdeal.RefRun.arg0_eq _),
       (h c Cert.ReferenceIdeal.main_arg1).trans (Cert.ReferenceIdeal.RefRun.arg1_eq _),
       (h c Cert.ReferenceIdeal.main_arg2).trans (Cert.ReferenceIdeal.RefRun.arg2_eq _),
       (h c Cert.ReferenceIdeal.main_arg3).trans (Cert.ReferenceIdeal.RefRun.arg3_eq _),
       (h c Cert.ReferenceIdeal.main_arg4).trans (Cert.ReferenceIdeal.RefRun.arg4_eq _),
       (h c Cert.ReferenceIdeal.main_arg5).trans (Cert.ReferenceIdeal.RefRun.arg5_eq _)⟩)
      (Cert.ReferenceIdeal.RefRun.run_main (F := Ideal) m' ρ')
    refine (h c Cert.ReferenceIdeal.main_v64).trans ((Cert.ReferenceIdeal.RefReads.out_eq _).trans ((Cert.RefOut.ref_out _ _ _ _ _).trans ?_))
    beta_reduce
    rw [← (hagree c).1, ← (hagree c).2.1, ← (hagree c).2.2.2.1, ← (hagree c).2.2.2.2.1, ← (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref, trivial, algebraic⟩

end Cert.Proof

end
